-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x128 : Shape := ⟨3, ![1, 50000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S600000 : Shape := ⟨1, ![600000]⟩
abbrev S_ : Shape := ⟨0, ![]⟩

class Facts : Prop where
  bcast_S_S1x50000x128 : S_.BroadcastsInDim S1x50000x128 (![] : Fin 0 → Fin S1x50000x128.rank)
  reducesTo_S1x50000x128_S_d0_1_2 : S1x50000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg7 : IVec S600000 32) (main_v33 : IVec S_ 1) : IVec S_ 1 :=
  let main_c_12 : IVec S_ 32 := constantI S_ 32 4294917296#32
  let main_v34 : IVec S600000 32 := broadcastInDim S600000 ![] bcast_S_S600000 main_c_12
  let main_v35 : IVec S600000 1 := cmpi .sge main_arg7 main_v34
  let main_c_13 : IVec S_ 32 := constantI S_ 32 50000#32
  let main_v36 : IVec S600000 32 := broadcastInDim S600000 ![] bcast_S_S600000 main_c_13
  let main_v37 : IVec S600000 1 := cmpi .slt main_arg7 main_v36
  let main_v38 : IVec S600000 1 := andi main_v35 main_v37
  let main_c_14 : IVec S_ 1 := constantI S_ 1 1#1
  let main_v39 : IVec S_ 1 := (fun x v => Host.reduce IntOp.andi x v reducesTo_S600000_S_d0 h_S_) main_v38 main_c_14
  let main_v40 : IVec S_ 1 := andi main_v33 main_v39
  main_v40

def fn_part1 {F : FTy → Type} [FloatOps F] (main_arg4 : FVec F S128 .f32) (main_arg5 : FVec F S40x128 .f32) (main_arg6 : FVec F S40 .f32) (main_arg7 : IVec S600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S40x128 .f32 := Host.absf main_arg5
  let main_cst_8 : FVec F S_ .f32 := constant S_ .f32 0x7F800000#32
  let main_v25 : FVec F S40x128 .f32 := broadcastInDim S40x128 ![] bcast_S_S40x128 main_cst_8
  let main_v26 : IVec S40x128 1 := cmpf .olt main_v24 main_v25
  let main_c_9 : IVec S_ 1 := constantI S_ 1 1#1
  let main_v27 : IVec S_ 1 := (fun x v => Host.reduce IntOp.andi x v reducesTo_S40x128_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg7 main_v33

def fn {F : FTy → Type} [FloatOps F] (main_arg0 : FVec F S1x50000x128 .f32) (main_arg1 : FVec F S128x128 .f32) (main_arg2 : FVec F S128 .f32) (main_arg3 : FVec F S128x128 .f32) (main_arg4 : FVec F S128 .f32) (main_arg5 : FVec F S40x128 .f32) (main_arg6 : FVec F S40 .f32) (main_arg7 : IVec S600000 32) (main_arg8 : IVec S600000 32) : IVec S_ 1 :=
  let main_v0 : FVec F S1x50000x128 .f32 := Host.absf main_arg0
  let main_cst : FVec F S_ .f32 := constant S_ .f32 0x7F800000#32
  let main_v1 : FVec F S1x50000x128 .f32 := broadcastInDim S1x50000x128 ![] bcast_S_S1x50000x128 main_cst
  let main_v2 : IVec S1x50000x128 1 := cmpf .olt main_v0 main_v1
  let main_c : IVec S_ 1 := constantI S_ 1 1#1
  let main_v3 : IVec S_ 1 := (fun x v => Host.reduce IntOp.andi x v reducesTo_S1x50000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S1x50000x128 : Shape := ⟨3, ![1, 50000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S600000 : Shape := ⟨1, ![600000]⟩
abbrev S50000x128 : Shape := ⟨2, ![50000, 128]⟩
abbrev S1x128 : Shape := ⟨2, ![1, 128]⟩
abbrev S10000x128 : Shape := ⟨2, ![10000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S5000x128 : Shape := ⟨2, ![5000, 128]⟩
abbrev S50000x40 : Shape := ⟨2, ![50000, 40]⟩
abbrev S1x50000x40 : Shape := ⟨3, ![1, 50000, 40]⟩

abbrev nBuf : Space → Nat
  | .hbm => 81
  | .vmem => 18
  | .smem => 0
  | _ => 0

abbrev bufTy : (tb : Table) → Fin (tcTables nBuf tb) → BufTy
  | .hbm, ⟨0, _⟩ => ⟨S1x50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S40x128, .f32⟩
  | .hbm, ⟨6, _⟩ => ⟨S40, .f32⟩
  | .hbm, ⟨7, _⟩ => ⟨S600000, .i32⟩
  | .hbm, ⟨8, _⟩ => ⟨S600000, .i32⟩
  | .hbm, ⟨9, _⟩ => ⟨S50000x128, .f32⟩
  | .hbm, ⟨10, _⟩ => ⟨S128x128, .f32⟩
  | .hbm, ⟨11, _⟩ => ⟨S1x128, .f32⟩
  | .hbm, ⟨12, _⟩ => ⟨S50000x128, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S1, .i32⟩
  | .hbm, ⟨22, _⟩ => ⟨S_, .i32⟩
  | .hbm, ⟨23, _⟩ => ⟨S600000x1, .i32⟩
  | .hbm, ⟨24, _⟩ => ⟨S600000x1, .i1⟩
  | .hbm, ⟨25, _⟩ => ⟨S1x1, .i32⟩
  | .hbm, ⟨26, _⟩ => ⟨S600000x1, .i32⟩
  | .hbm, ⟨27, _⟩ => ⟨S600000x1, .i1⟩
  | .hbm, ⟨28, _⟩ => ⟨S600000x1, .i1⟩
  | .hbm, ⟨29, _⟩ => ⟨S_, .i1⟩
  | .hbm, ⟨30, _⟩ => ⟨S600000, .i1⟩
  | .hbm, ⟨31, _⟩ => ⟨S600000x128, .f32⟩
  | .hbm, ⟨32, _⟩ => ⟨S600000x128, .i1⟩
  | .hbm, ⟨33, _⟩ => ⟨S_, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S128x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S1, .i32⟩
  | .hbm, ⟨52, _⟩ => ⟨S_, .i32⟩
  | .hbm, ⟨53, _⟩ => ⟨S600000x1, .i32⟩
  | .hbm, ⟨54, _⟩ => ⟨S600000x1, .i1⟩
  | .hbm, ⟨55, _⟩ => ⟨S1x1, .i32⟩
  | .hbm, ⟨56, _⟩ => ⟨S600000x1, .i32⟩
  | .hbm, ⟨57, _⟩ => ⟨S600000x1, .i1⟩
  | .hbm, ⟨58, _⟩ => ⟨S600000x1, .i1⟩
  | .hbm, ⟨59, _⟩ => ⟨S_, .i1⟩
  | .hbm, ⟨60, _⟩ => ⟨S600000, .i1⟩
  | .hbm, ⟨61, _⟩ => ⟨S600000x128, .f32⟩
  | .hbm, ⟨62, _⟩ => ⟨S600000x128, .i1⟩
  | .hbm, ⟨63, _⟩ => ⟨S_, .f32⟩
  | .hbm, ⟨64, _⟩ => ⟨S600000x128, .f32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S_, .i32⟩
  | .hbm, ⟨71, _⟩ => ⟨S_, .f32⟩
  | .hbm, ⟨72, _⟩ => ⟨S128x128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S128x128, .f32⟩
  | .hbm, ⟨77, _⟩ => ⟨S1x128, .f32⟩
  | .hbm, ⟨78, _⟩ => ⟨S50000x128, .f32⟩
  | .hbm, ⟨79, _⟩ => ⟨S50000x40, .f32⟩
  | .hbm, ⟨80, _⟩ => ⟨S1x50000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S1x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v11 : Ref sig .tc := ⟨.hbm, 65, rfl⟩
abbrev main_cst_0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_c : Ref sig .tc := ⟨.hbm, 70, rfl⟩
abbrev main_call2_v0 : Ref sig .tc := ⟨.hbm, 71, rfl⟩
abbrev main_v15 : Ref sig .tc := ⟨.hbm, 72, rfl⟩
abbrev main_c_1 : Ref sig .tc := ⟨.hbm, 73, rfl⟩
abbrev main_call3_v0 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x50000x128_S50000x128 : S1x50000x128.ShapeCasts S50000x128
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  pads_S40x128_S128x128_0880_000 : S40x128.Pads (![0, 0] : Fin 2 → Nat) ![88, 0] ![0, 0] S128x128
  pads_S40_S128_0880 : S40.Pads (![0] : Fin 1 → Nat) ![88] ![0] S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  slices_S50000x128_S50000x40_0_0 : S50000x128.Slices ![0, 0] S50000x40
  bcast_S50000x40_S1x50000x40_1_2 : S50000x40.BroadcastsInDim S1x50000x40 (![1, 2] : Fin 2 → Fin S1x50000x40.rank)
  dot_S10000x128_S128x128_S10000x128_1_0_0_1_n_n_wf : DotDims.WF S10000x128 S128x128 S10000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x50000x128 : Shape := ⟨3, ![1, 50000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S600000 : Shape := ⟨1, ![600000]⟩
abbrev S_ : Shape := ⟨0, ![]⟩
abbrev S600000x1 : Shape := ⟨2, ![600000, 1]⟩
abbrev S1x600000x128 : Shape := ⟨3, ![1, 600000, 128]⟩
abbrev S1x1x128 : Shape := ⟨3, ![1, 1, 128]⟩
abbrev S50000x128 : Shape := ⟨2, ![50000, 128]⟩
abbrev S1x50000x40 : Shape := ⟨3, ![1, 50000, 40]⟩
abbrev S1x1x40 : Shape := ⟨3, ![1, 1, 40]⟩

abbrev nBuf : Space → Nat
  | .hbm => 55
  | .vmem => 0
  | .smem => 0
  | _ => 0

abbrev bufTy : (tb : Table) → Fin (tcTables nBuf tb) → BufTy
  | .hbm, ⟨0, _⟩ => ⟨S1x50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S40x128, .f32⟩
  | .hbm, ⟨6, _⟩ => ⟨S40, .f32⟩
  | .hbm, ⟨7, _⟩ => ⟨S600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S1x600000x128, .f32⟩
  | .hbm, ⟨18, _⟩ => ⟨S1x600000x128, .f32⟩
  | .hbm, ⟨19, _⟩ => ⟨S1x1x128, .f32⟩
  | .hbm, ⟨20, _⟩ => ⟨S1x600000x128, .f32⟩
  | .hbm, ⟨21, _⟩ => ⟨S1x600000x128, .f32⟩
  | .hbm, ⟨22, _⟩ => ⟨S_, .f32⟩
  | .hbm, ⟨23, _⟩ => ⟨S1x600000x128, .f32⟩
  | .hbm, ⟨24, _⟩ => ⟨S1x600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S1x50000x128, .f32⟩
  | .hbm, ⟨29, _⟩ => ⟨S1x50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S1x600000x128, .f32⟩
  | .hbm, ⟨39, _⟩ => ⟨S1x600000x128, .f32⟩
  | .hbm, ⟨40, _⟩ => ⟨S1x1x128, .f32⟩
  | .hbm, ⟨41, _⟩ => ⟨S1x600000x128, .f32⟩
  | .hbm, ⟨42, _⟩ => ⟨S1x600000x128, .f32⟩
  | .hbm, ⟨43, _⟩ => ⟨S_, .f32⟩
  | .hbm, ⟨44, _⟩ => ⟨S1x600000x128, .f32⟩
  | .hbm, ⟨45, _⟩ => ⟨S1x600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S1x50000x128, .f32⟩
  | .hbm, ⟨50, _⟩ => ⟨S1x50000x128, .f32⟩
  | .hbm, ⟨51, _⟩ => ⟨S1x50000x40, .f32⟩
  | .hbm, ⟨52, _⟩ => ⟨S1x1x40, .f32⟩
  | .hbm, ⟨53, _⟩ => ⟨S1x50000x40, .f32⟩
  | .hbm, ⟨54, _⟩ => ⟨S1x50000x40, .f32⟩
  | _, _ => ⟨S1x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S128_S1x1x128_2 : S128.BroadcastsInDim S1x1x128 (![2] : Fin 1 → Fin S1x1x128.rank)
  bcast_S1x1x128_S1x600000x128_0_1_2 : S1x1x128.BroadcastsInDim S1x600000x128 (![0, 1, 2] : Fin 3 → Fin S1x600000x128.rank)
  bcast_S_S1x600000x128 : S_.BroadcastsInDim S1x600000x128 (![] : Fin 0 → Fin S1x600000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  bcast_S40_S1x1x40_2 : S40.BroadcastsInDim S1x1x40 (![2] : Fin 1 → Fin S1x1x40.rank)
  bcast_S1x1x40_S1x50000x40_0_1_2 : S1x1x40.BroadcastsInDim S1x50000x40 (![0, 1, 2] : Fin 3 → Fin S1x50000x40.rank)
  gather_S1x50000x128_S600000x1_S1x600000x128_02_1_n_n_1_1_11128_wf : GatherDims.WF S1x50000x128 S600000x1 S1x600000x128 [0, 2] [1] [] [1] [] 1 ![1, 1, 128]
  dot_S1x600000x128_S128x128_S1x600000x128_2_1_01_0_n_n_wf : DotDims.WF S1x600000x128 S128x128 S1x600000x128 [2] [1] [0, 1] [0] [] []
  scatter_S1x50000x128_S600000x1_S1x600000x128_02_1_1_1_wf : ScatterDims.WF S1x50000x128 S600000x1 S1x600000x128 [0, 2] [1] [1] 1
  dot_S1x50000x128_S40x128_S1x50000x40_2_1_01_0_n_n_wf : DotDims.WF S1x50000x128 S40x128 S1x50000x40 [2] [1] [0, 1] [0] [] []

variable [Facts₀]

def gather_S1x50000x128_S600000x1_S1x600000x128_02_1_n_n_1_1_11128 : GatherDims S1x50000x128 S600000x1 S1x600000x128 where
  offsetDims := [0, 2]
  collapsedSliceDims := [1]
  operandBatchingDims := []
  startIndicesBatchingDims := []
  startIndexMap := [1]
  indexVectorDim := 1
  sliceSizes := ![1, 1, 128]
  wf := gather_S1x50000x128_S600000x1_S1x600000x128_02_1_n_n_1_1_11128_wf
def dot_S1x600000x128_S128x128_S1x600000x128_2_1_01_0_n_n : DotDims S1x600000x128 S128x128 S1x600000x128 where
  lhsContracting := [2]
  rhsContracting := [1]
  lhsNonContracting := [0, 1]
  rhsNonContracting := [0]
  lhsBatch := []
  rhsBatch := []
  wf := dot_S1x600000x128_S128x128_S1x600000x128_2_1_01_0_n_n_wf
def scatter_S1x50000x128_S600000x1_S1x600000x128_02_1_1_1 : ScatterDims S1x50000x128 S600000x1 S1x600000x128 where
  updateWindowDims := [0, 2]
  insertedWindowDims := [1]
  scatterDimsToOperandDims := [1]
  indexVectorDim := 1
  wf := scatter_S1x50000x128_S600000x1_S1x600000x128_02_1_1_1_wf
def dot_S1x50000x128_S40x128_S1x50000x40_2_1_01_0_n_n : DotDims S1x50000x128 S40x128 S1x50000x40 where
  lhsContracting := [2]
  rhsContracting := [1]
  lhsNonContracting := [0, 1]
  rhsNonContracting := [0]
  lhsBatch := []
  rhsBatch := []
  wf := dot_S1x50000x128_S40x128_S1x50000x40_2_1_01_0_n_n_wf

class Facts : Prop extends Facts₀ where

variable [Facts]
-- ==== Proof.RegionValue0.lean ====
/-
  Region 0 of the kernel's program, read as a value: after its five or ten grid points have run, the output
  array holds, at row `n` and column `h`, the sum over `k` of the input table's entry `(n, k)` times the weight
  array's entry `(k, h)`, plus the bias row's entry `h`, clipped at zero — whatever the three arrays held when the region
  was entered. Each grid point computes this for its own block of rows (the weight and bias blocks are the whole
  arrays at every point), the blocks tile the table, and an entry depends on its own row only.
-/
import proofs.«402194_j8358006358160_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What region 0 leaves in its output array, as one function of its three input arrays. -/
abbrev value0 (a0 : S50000x128.Idx → Elt Ideal .f32) (a1 : S128x128.Idx → Elt Ideal .f32) (a2 : S1x128.Idx → Elt Ideal .f32) :
    S50000x128.Idx → Elt Ideal .f32 := fun i =>
  max ((∑ k : Fin 128, a0 (ix2 (i 0) k) * a1 (ix2 k (i 1))) + a2 (ix2 (0 : Fin 1) (i 1))) (FloatOps.ofBits (F := Ideal) .f32 0x00000000#32)

/-! ## The matrix product's index maps, axis by axis -/

theorem matmulLhs0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem matmulLhs0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem matmulRhs0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem matmulRhs0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix product into a zero accumulator, at row `p` and column `q`: the sum over the contracted axis. -/
theorem matmul0_apply (l : FVec Ideal S10000x128 .bf16) (r : FVec Ideal S128x128 .bf16) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  show FloatOps.matmul dot_S10000x128_S128x128_S10000x128_1_0_0_1_n_n none l r (constant (F := Ideal) S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact matmulLhs0_0 _ _
    | ⟨1, _⟩ => exact (matmulLhs0_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (matmulRhs0_0 _ _).trans hk
    | ⟨1, _⟩ => exact matmulRhs0_1 _ _)
  rw [el, er]

/-- The bias row spread over the block's rows, at row `p` and column `q`: the row's entry `q`. -/
theorem bias0_apply (x2 : Vec Ideal S1x128 .f32) (p : Fin 10000) (q : Fin 128) :
    broadcastTo S10000x128 x2 broadcasts_S1x128_S10000x128 (ix2 p q) = x2 (ix2 (0 : Fin 1) q) := by
  refine broadcastTo_apply x2 broadcasts_S1x128_S10000x128 (ix2 p q) (ix2 (0 : Fin 1) q) fun a => ?_
  match a with
  | ⟨0, _⟩ => rfl
  | ⟨1, _⟩ => rfl

/-- The body's arithmetic at row `p` and column `q` of its block. -/
theorem payload0_apply (x0 : Vec Ideal S10000x128 .f32) (x1 : Vec Ideal S128x128 .f32) (x2 : Vec Ideal S1x128 .f32) (p : Fin 10000) (q : Fin 128) :
    k0_pay1 x0 x1 x2 (ix2 p q)
      = max ((∑ k : Fin 128, x0 (ix2 p k) * x1 (ix2 k q)) + x2 (ix2 (0 : Fin 1) q)) (FloatOps.ofBits (F := Ideal) .f32 0x00000000#32) := by
  unfold k0_pay1
  simp only [shapeCast_self]
  rw [maximumf_apply, addf_apply, bias0_apply, matmul0_apply]
  rfl

/-! ## From the blocks to the array -/

theorem zeroOffsets0 : (![0, 0] : Fin 2 → Nat) = fun _ => 0 := funext fun a => by fin_cases a <;> rfl

/-- The body's result at an entry of its block is `value0` at the array's entry in the same place, when the table's
    block holds the array's row there, the weight and bias blocks are the whole arrays, and the column is the same. -/
theorem block0_eq (a0 : S50000x128.Idx → Elt Ideal .f32) (a1 : S128x128.Idx → Elt Ideal .f32) (a2 : S1x128.Idx → Elt Ideal .f32)
    (x0 : Vec Ideal S10000x128 .f32) (x1 : Vec Ideal S128x128 .f32) (x2 : Vec Ideal S1x128 .f32)
    (j : S10000x128.Idx) (i : S50000x128.Idx)
    (h0 : ∀ k : Fin 128, x0 (ix2 (j 0) k) = a0 (ix2 (i 0) k)) (h1 : x1 = a1) (h2 : x2 = a2) (hi : (i 1).val = (j 1).val) :
    k0_pay1 x0 x1 x2 j = value0 a0 a1 a2 i := by
  subst h1 h2
  obtain ⟨p, q, rfl⟩ : ∃ (p : Fin 10000) (q : Fin 128), j = ix2 p q := ⟨j 0, j 1, eq_ix2 j⟩
  have h0' : ∀ k : Fin 128, x0 (ix2 p k) = a0 (ix2 (i 0) k) := h0
  have hi' : i 1 = q := Fin.ext hi
  rw [payload0_apply]
  show _ = max ((∑ k : Fin 128, a0 (ix2 (i 0) k) * x1 (ix2 k (i 1))) + x2 (ix2 (0 : Fin 1) (i 1))) _
  rw [hi']
  simp only [h0']

/-- The windows' block indices, decided over the grid: the table's and the output's blocks are block `t` of rows, the
    weight's and the bias row's the whole arrays. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `value0` of the three arrays as the region finds them. -/
theorem flushed0_eq (c : Dev nD) (t : Fin cfg0.N) :
    (dat0 (F := Ideal) V c).flushed 3 t
      = ((cfg0.win 3).blk t).view.read (Elt Ideal) (value0 (V c main_v0) (V c main_v1) (V c main_v2)) := by
  show (cfg0.win 3).cut (grid0.coords t) ((dat0 (F := Ideal) V c).after 3 t) = _
  rw [after0_3]
  unfold out0_3
  rw [View.canon_unit_zero zeroOffsets0]
  simp only [View.ld_unit_zero (S := S10000x128) zeroOffsets0, View.ld_unit_zero (S := S128x128) zeroOffsets0, View.ld_unit_zero (S := S1x128) zeroOffsets0]
  obtain ⟨e00, e01, e10, e11, e20, e21, e30, e31⟩ := blockIndex0 t
  funext j
  show k0_pay1 (iblk0 V c 0 t) (iblk0 V c 1 t) (iblk0 V c 2 t) j
    = value0 (V c main_v0) (V c main_v1) (V c main_v2) (((cfg0.win 3).blk t).view.emb j)
  refine block0_eq _ _ _ _ _ _ j _ (fun k => ?_) ?_ ?_ ?_
  · show V c main_v0 (((cfg0.win 0).blk t).view.emb (ix2 (j 0) k)) = V c main_v0 (ix2 ((((cfg0.win 3).blk t).view.emb j) 0) k)
    refine congrArg (V c main_v0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · funext y
    show V c main_v1 (((cfg0.win 1).blk t).view.emb y) = V c main_v1 y
    refine congrArg (V c main_v1) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v2 (((cfg0.win 2).blk t).view.emb y) = V c main_v2 y
    refine congrArg (V c main_v2) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (1 : Fin 2) * 128 + 1 * (j 1).val = (j 1).val
    omega

/-- An index of the array is in point `t`'s block iff each coordinate is in the block's range on its axis. -/
theorem mem_block0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v3).slice (win0_3.rect t)).set ↔ _
  rw [View.set_slice_whole, Rect.mem_set_unit]
  exact Iff.rfl

/-- Every index of the array is in some point's block: row `r` is in the block of point `r / 10000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, (show (i 0).val / 10000 < 5 by omega).trans_eq N_0.symm⟩, rfl⟩
  obtain ⟨-, -, -, -, -, -, e30, e31⟩ := blockIndex0 t
  refine ⟨t, flush0_3 t, ?_⟩
  rw [mem_block0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE ARRAY region 0 leaves: `value0` of the three arrays as the region finds them. -/
theorem final0 (c : Dev nD) :
    (dat0 (F := Ideal) V c).arrAt 3 cfg0.N = value0 (V c main_v0) (V c main_v1) (V c main_v2) := by
  exact (dat0 (F := Ideal) V c).arrAt_eq_of_cover 3 (value0 (V c main_v0) (V c main_v1) (V c main_v2))
    (fun t _ => flushed0_eq V c t) cover0

end Cert.KernelIdeal.RegionValue

end
-- ==== Proof.RegionValue1.lean ====
/-
  Region 1 of the kernel's program, read as a value: after its five or ten grid points have run, the output
  array holds, at row `n` and column `h`, the sum over `k` of the input table's entry `(n, k)` times the weight
  array's entry `(k, h)`, plus the bias row's entry `h`, clipped at zero — whatever the three arrays held when the region
  was entered. Each grid point computes this for its own block of rows (the weight and bias blocks are the whole
  arrays at every point), the blocks tile the table, and an entry depends on its own row only.
-/
import proofs.«402194_j8358006358160_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What region 1 leaves in its output array, as one function of its three input arrays. -/
abbrev value1 (a0 : S50000x128.Idx → Elt Ideal .f32) (a1 : S128x128.Idx → Elt Ideal .f32) (a2 : S1x128.Idx → Elt Ideal .f32) :
    S50000x128.Idx → Elt Ideal .f32 := fun i =>
  max ((∑ k : Fin 128, a0 (ix2 (i 0) k) * a1 (ix2 k (i 1))) + a2 (ix2 (0 : Fin 1) (i 1))) (FloatOps.ofBits (F := Ideal) .f32 0x00000000#32)

/-! ## The matrix product's index maps, axis by axis -/

theorem matmulLhs1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem matmulLhs1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem matmulRhs1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem matmulRhs1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix product into a zero accumulator, at row `p` and column `q`: the sum over the contracted axis. -/
theorem matmul1_apply (l : FVec Ideal S10000x128 .bf16) (r : FVec Ideal S128x128 .bf16) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  show FloatOps.matmul dot_S10000x128_S128x128_S10000x128_1_0_0_1_n_n none l r (constant (F := Ideal) S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact matmulLhs1_0 _ _
    | ⟨1, _⟩ => exact (matmulLhs1_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (matmulRhs1_0 _ _).trans hk
    | ⟨1, _⟩ => exact matmulRhs1_1 _ _)
  rw [el, er]

/-- The bias row spread over the block's rows, at row `p` and column `q`: the row's entry `q`. -/
theorem bias1_apply (x2 : Vec Ideal S1x128 .f32) (p : Fin 10000) (q : Fin 128) :
    broadcastTo S10000x128 x2 broadcasts_S1x128_S10000x128 (ix2 p q) = x2 (ix2 (0 : Fin 1) q) := by
  refine broadcastTo_apply x2 broadcasts_S1x128_S10000x128 (ix2 p q) (ix2 (0 : Fin 1) q) fun a => ?_
  match a with
  | ⟨0, _⟩ => rfl
  | ⟨1, _⟩ => rfl

/-- The body's arithmetic at row `p` and column `q` of its block. -/
theorem payload1_apply (x0 : Vec Ideal S10000x128 .f32) (x1 : Vec Ideal S128x128 .f32) (x2 : Vec Ideal S1x128 .f32) (p : Fin 10000) (q : Fin 128) :
    k1_pay1 x0 x1 x2 (ix2 p q)
      = max ((∑ k : Fin 128, x0 (ix2 p k) * x1 (ix2 k q)) + x2 (ix2 (0 : Fin 1) q)) (FloatOps.ofBits (F := Ideal) .f32 0x00000000#32) := by
  unfold k1_pay1
  simp only [shapeCast_self]
  rw [maximumf_apply, addf_apply, bias1_apply, matmul1_apply]
  rfl

/-! ## From the blocks to the array -/

theorem zeroOffsets1 : (![0, 0] : Fin 2 → Nat) = fun _ => 0 := funext fun a => by fin_cases a <;> rfl

/-- The body's result at an entry of its block is `value1` at the array's entry in the same place, when the table's
    block holds the array's row there, the weight and bias blocks are the whole arrays, and the column is the same. -/
theorem block1_eq (a0 : S50000x128.Idx → Elt Ideal .f32) (a1 : S128x128.Idx → Elt Ideal .f32) (a2 : S1x128.Idx → Elt Ideal .f32)
    (x0 : Vec Ideal S10000x128 .f32) (x1 : Vec Ideal S128x128 .f32) (x2 : Vec Ideal S1x128 .f32)
    (j : S10000x128.Idx) (i : S50000x128.Idx)
    (h0 : ∀ k : Fin 128, x0 (ix2 (j 0) k) = a0 (ix2 (i 0) k)) (h1 : x1 = a1) (h2 : x2 = a2) (hi : (i 1).val = (j 1).val) :
    k1_pay1 x0 x1 x2 j = value1 a0 a1 a2 i := by
  subst h1 h2
  obtain ⟨p, q, rfl⟩ : ∃ (p : Fin 10000) (q : Fin 128), j = ix2 p q := ⟨j 0, j 1, eq_ix2 j⟩
  have h0' : ∀ k : Fin 128, x0 (ix2 p k) = a0 (ix2 (i 0) k) := h0
  have hi' : i 1 = q := Fin.ext hi
  rw [payload1_apply]
  show _ = max ((∑ k : Fin 128, a0 (ix2 (i 0) k) * x1 (ix2 k (i 1))) + x2 (ix2 (0 : Fin 1) (i 1))) _
  rw [hi']
  simp only [h0']

/-- The windows' block indices, decided over the grid: the table's and the output's blocks are block `t` of rows, the
    weight's and the bias row's the whole arrays. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `value1` of the three arrays as the region finds them. -/
theorem flushed1_eq (c : Dev nD) (t : Fin cfg1.N) :
    (dat1 (F := Ideal) V c).flushed 3 t
      = ((cfg1.win 3).blk t).view.read (Elt Ideal) (value1 (V c main_v7) (V c main_v8) (V c main_v9)) := by
  show (cfg1.win 3).cut (grid1.coords t) ((dat1 (F := Ideal) V c).after 3 t) = _
  rw [after1_3]
  unfold out1_3
  rw [View.canon_unit_zero zeroOffsets1]
  simp only [View.ld_unit_zero (S := S10000x128) zeroOffsets1, View.ld_unit_zero (S := S128x128) zeroOffsets1, View.ld_unit_zero (S := S1x128) zeroOffsets1]
  obtain ⟨e00, e01, e10, e11, e20, e21, e30, e31⟩ := blockIndex1 t
  funext j
  show k1_pay1 (iblk1 V c 0 t) (iblk1 V c 1 t) (iblk1 V c 2 t) j
    = value1 (V c main_v7) (V c main_v8) (V c main_v9) (((cfg1.win 3).blk t).view.emb j)
  refine block1_eq _ _ _ _ _ _ j _ (fun k => ?_) ?_ ?_ ?_
  · show V c main_v7 (((cfg1.win 0).blk t).view.emb (ix2 (j 0) k)) = V c main_v7 (ix2 ((((cfg1.win 3).blk t).view.emb j) 0) k)
    refine congrArg (V c main_v7) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  · funext y
    show V c main_v8 (((cfg1.win 1).blk t).view.emb y) = V c main_v8 y
    refine congrArg (V c main_v8) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v9 (((cfg1.win 2).blk t).view.emb y) = V c main_v9 y
    refine congrArg (V c main_v9) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show win1_3.index t (1 : Fin 2) * 128 + 1 * (j 1).val = (j 1).val
    omega

/-- An index of the array is in point `t`'s block iff each coordinate is in the block's range on its axis. -/
theorem mem_block1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v10).slice (win1_3.rect t)).set ↔ _
  rw [View.set_slice_whole, Rect.mem_set_unit]
  exact Iff.rfl

/-- Every index of the array is in some point's block: row `r` is in the block of point `r / 10000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 10000 :=
    ⟨⟨(i 0).val / 10000, (show (i 0).val / 10000 < 5 by omega).trans_eq N_1.symm⟩, rfl⟩
  obtain ⟨-, -, -, -, -, -, e30, e31⟩ := blockIndex1 t
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE ARRAY region 1 leaves: `value1` of the three arrays as the region finds them. -/
theorem final1 (c : Dev nD) :
    (dat1 (F := Ideal) V c).arrAt 3 cfg1.N = value1 (V c main_v7) (V c main_v8) (V c main_v9) := by
  exact (dat1 (F := Ideal) V c).arrAt_eq_of_cover 3 (value1 (V c main_v7) (V c main_v8) (V c main_v9))
    (fun t _ => flushed1_eq V c t) cover1

end Cert.KernelIdeal.RegionValue

end
-- ==== Proof.RegionValue2.lean ====
/-
  Region 2 of the kernel's program, read as a value: after its five or ten grid points have run, the output
  array holds, at row `n` and column `h`, the sum over `k` of the input table's entry `(n, k)` times the weight
  array's entry `(k, h)`, plus the bias row's entry `h` — whatever the three arrays held when the region
  was entered. Each grid point computes this for its own block of rows (the weight and bias blocks are the whole
  arrays at every point), the blocks tile the table, and an entry depends on its own row only.
-/
import proofs.«402194_j8358006358160_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- What region 2 leaves in its output array, as one function of its three input arrays. -/
abbrev value2 (a0 : S50000x128.Idx → Elt Ideal .f32) (a1 : S128x128.Idx → Elt Ideal .f32) (a2 : S1x128.Idx → Elt Ideal .f32) :
    S50000x128.Idx → Elt Ideal .f32 := fun i =>
  (∑ k : Fin 128, a0 (ix2 (i 0) k) * a1 (ix2 k (i 1))) + a2 (ix2 (0 : Fin 1) (i 1))

/-! ## The matrix product's index maps, axis by axis -/

theorem matmulLhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmulLhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem matmulRhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem matmulRhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `p` and column `q`: the sum over the contracted axis. -/
theorem matmul2_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact matmulLhs2_0 _ _
    | ⟨1, _⟩ => exact (matmulLhs2_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (matmulRhs2_0 _ _).trans hk
    | ⟨1, _⟩ => exact matmulRhs2_1 _ _)
  rw [el, er]

/-- The bias row spread over the block's rows, at row `p` and column `q`: the row's entry `q`. -/
theorem bias2_apply (x2 : Vec Ideal S1x128 .f32) (p : Fin 5000) (q : Fin 128) :
    broadcastTo S5000x128 x2 broadcasts_S1x128_S5000x128 (ix2 p q) = x2 (ix2 (0 : Fin 1) q) := by
  refine broadcastTo_apply x2 broadcasts_S1x128_S5000x128 (ix2 p q) (ix2 (0 : Fin 1) q) fun a => ?_
  match a with
  | ⟨0, _⟩ => rfl
  | ⟨1, _⟩ => rfl

/-- The body's arithmetic at row `p` and column `q` of its block. -/
theorem payload2_apply (x0 : Vec Ideal S5000x128 .f32) (x1 : Vec Ideal S128x128 .f32) (x2 : Vec Ideal S1x128 .f32) (p : Fin 5000) (q : Fin 128) :
    k2_pay1 x0 x1 x2 (ix2 p q)
      = (∑ k : Fin 128, x0 (ix2 p k) * x1 (ix2 k q)) + x2 (ix2 (0 : Fin 1) q) := by
  unfold k2_pay1
  simp only [shapeCast_self]
  rw [addf_apply, bias2_apply, matmul2_apply]
  rfl

/-! ## From the blocks to the array -/

theorem zeroOffsets2 : (![0, 0] : Fin 2 → Nat) = fun _ => 0 := funext fun a => by fin_cases a <;> rfl

/-- The body's result at an entry of its block is `value2` at the array's entry in the same place, when the table's
    block holds the array's row there, the weight and bias blocks are the whole arrays, and the column is the same. -/
theorem block2_eq (a0 : S50000x128.Idx → Elt Ideal .f32) (a1 : S128x128.Idx → Elt Ideal .f32) (a2 : S1x128.Idx → Elt Ideal .f32)
    (x0 : Vec Ideal S5000x128 .f32) (x1 : Vec Ideal S128x128 .f32) (x2 : Vec Ideal S1x128 .f32)
    (j : S5000x128.Idx) (i : S50000x128.Idx)
    (h0 : ∀ k : Fin 128, x0 (ix2 (j 0) k) = a0 (ix2 (i 0) k)) (h1 : x1 = a1) (h2 : x2 = a2) (hi : (i 1).val = (j 1).val) :
    k2_pay1 x0 x1 x2 j = value2 a0 a1 a2 i := by
  subst h1 h2
  obtain ⟨p, q, rfl⟩ : ∃ (p : Fin 5000) (q : Fin 128), j = ix2 p q := ⟨j 0, j 1, eq_ix2 j⟩
  have h0' : ∀ k : Fin 128, x0 (ix2 p k) = a0 (ix2 (i 0) k) := h0
  have hi' : i 1 = q := Fin.ext hi
  rw [payload2_apply]
  show _ = (∑ k : Fin 128, a0 (ix2 (i 0) k) * x1 (ix2 k (i 1))) + x2 (ix2 (0 : Fin 1) (i 1))
  rw [hi']
  simp only [h0']

/-- The windows' block indices, decided over the grid: the table's and the output's blocks are block `t` of rows, the
    weight's and the bias row's the whole arrays. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of `value2` of the three arrays as the region finds them. -/
theorem flushed2_eq (c : Dev nD) (t : Fin cfg2.N) :
    (dat2 (F := Ideal) V c).flushed 3 t
      = ((cfg2.win 3).blk t).view.read (Elt Ideal) (value2 (V c main_v14) (V c main_v17) (V c main_v18)) := by
  show (cfg2.win 3).cut (grid2.coords t) ((dat2 (F := Ideal) V c).after 3 t) = _
  rw [after2_3]
  unfold out2_3
  rw [View.canon_unit_zero zeroOffsets2]
  simp only [View.ld_unit_zero (S := S5000x128) zeroOffsets2, View.ld_unit_zero (S := S128x128) zeroOffsets2, View.ld_unit_zero (S := S1x128) zeroOffsets2]
  obtain ⟨e00, e01, e10, e11, e20, e21, e30, e31⟩ := blockIndex2 t
  funext j
  show k2_pay1 (iblk2 V c 0 t) (iblk2 V c 1 t) (iblk2 V c 2 t) j
    = value2 (V c main_v14) (V c main_v17) (V c main_v18) (((cfg2.win 3).blk t).view.emb j)
  refine block2_eq _ _ _ _ _ _ j _ (fun k => ?_) ?_ ?_ ?_
  · show V c main_v14 (((cfg2.win 0).blk t).view.emb (ix2 (j 0) k)) = V c main_v14 (ix2 ((((cfg2.win 3).blk t).view.emb j) 0) k)
    refine congrArg (V c main_v14) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext y
    show V c main_v17 (((cfg2.win 1).blk t).view.emb y) = V c main_v17 y
    refine congrArg (V c main_v17) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · funext y
    show V c main_v18 (((cfg2.win 2).blk t).view.emb y) = V c main_v18 y
    refine congrArg (V c main_v18) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · show win2_3.index t (1 : Fin 2) * 128 + 1 * (j 1).val = (j 1).val
    omega

/-- An index of the array is in point `t`'s block iff each coordinate is in the block's range on its axis. -/
theorem mem_block2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v19).slice (win2_3.rect t)).set ↔ _
  rw [View.set_slice_whole, Rect.mem_set_unit]
  exact Iff.rfl

/-- Every index of the array is in some point's block: row `r` is in the block of point `r / 5000`. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, (show (i 0).val / 5000 < 10 by omega).trans_eq N_2.symm⟩, rfl⟩
  obtain ⟨-, -, -, -, -, -, e30, e31⟩ := blockIndex2 t
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE ARRAY region 2 leaves: `value2` of the three arrays as the region finds them. -/
theorem final2 (c : Dev nD) :
    (dat2 (F := Ideal) V c).arrAt 3 cfg2.N = value2 (V c main_v14) (V c main_v17) (V c main_v18) := by
  exact (dat2 (F := Ideal) V c).arrAt_eq_of_cover 3 (value2 (V c main_v14) (V c main_v17) (V c main_v18))
    (fun t _ => flushed2_eq V c t) cover2

end Cert.KernelIdeal.RegionValue

end
-- ==== Proof.Spec.lean ====
/-
  The graph network both programs compute, as ONE function of the argument arrays over the extended reals.

  A table `X` of 50000 rows of 128 features; 600000 edges, edge `e` reading row `r e` and adding into row `d e`.
  One convolution: every edge takes its source row, applies the affine map `x ↦ x · Wᵀ + b` and clips at zero, and
  the results are summed into the destination rows (an edge whose destination is no row of the table adds nowhere).
  Two convolutions, then one affine map into 40 classes.

  The affine map acts on a ROW, and reading a row commutes with any map applied row by row: whether the map is
  applied to the 600000 gathered rows (the reference) or to the 50000 rows of the table before they are gathered
  (the kernel), edge `e` holds the same 128 numbers. No law of arithmetic is used, only that the two programs
  apply the same operations to the same entries.
-/
import Idealize.ShloMosaic.Lib.ValueIdx
import Idealize.ShloMosaic.PureOps.Ideal.Laws

noncomputable section

open scoped BigOperators

namespace Cert.GNN

open Idealize.ShloMosaic Idealize.ShloMosaic.ValueIdx

/-- The zero both programs clip at and start their sums from: the word `0x00000000` read as a float. -/
def z : EReal := FloatOps.ofBits (F := Ideal) .f32 0x00000000#32

/-- A source word as a row number: a negative word counts from the end of the table. -/
def wrapWord (w : BitVec 32) : BitVec 32 :=
  Scalar.select (IntOp.cmpi .slt w 0#32) (IntOp.addi w 50000#32) w

/-- The row an edge reads: the wrapped word, read signed and clamped into the table. -/
def rowIdx (w : BitVec 32) : Fin 50000 := ⟨min (wrapWord w).toInt.toNat (50000 - 1), by omega⟩

/-- Every source word is a row number of the table, counted from the start or (negative) from the end. -/
def InRange (a7 : IVec ⟨1, ![600000]⟩ 32) : Prop :=
  ∀ e : Fin 600000, -50000 ≤ (a7 (ix1 e)).toInt ∧ (a7 (ix1 e)).toInt < 50000

/-- A word in range wraps to a row number of the table. -/
theorem wrapWord_inRange (w : BitVec 32) (h : -50000 ≤ w.toInt ∧ w.toInt < 50000) :
    0 ≤ (wrapWord w).toInt ∧ (wrapWord w).toInt ≤ 49999 := by
  obtain ⟨h1, h2⟩ := h
  have hz : (0#32 : BitVec 32).toInt = 0 := by decide
  unfold wrapWord Scalar.select IntOp.cmpi IntOp.addi
  by_cases hneg : w.toInt < 0
  · have hs : BitVec.slt w 0#32 = true := by
      simp only [BitVec.slt, hz, decide_eq_true_eq]; exact hneg
    rw [hs]
    simp only [BitVec.ofBool_true, if_true]
    have hw := w.isLt
    rw [BitVec.toInt_eq_toNat_cond] at h1 h2 hneg ⊢
    rw [BitVec.toNat_add]
    simp only [BitVec.toNat_ofNat] at *
    split at h1 <;> split <;> omega
  · have hs : BitVec.slt w 0#32 = false := by
      simp only [BitVec.slt, hz, decide_eq_false_iff_not]; exact hneg
    rw [hs]
    have hne : ¬ (BitVec.ofBool false = (1 : BitVec 1)) := by decide
    rw [if_neg hne]
    omega

/-- The affine map on one row: `(x · Wᵀ + b) h = Σ_k x_k · W_{h,k} + b_h`. -/
def lin {H : ℕ} (x : Fin 128 → EReal) (W : Fin H → Fin 128 → EReal) (b : Fin H → EReal) (h : Fin H) : EReal :=
  (∑ k : Fin 128, x k * W h k) + b h

/-- One convolution: row `n` of the new table sums, over the edges `e` that end at `n`, the clipped affine image
    of the row edge `e` starts from. -/
def conv (X : Fin 50000 → Fin 128 → EReal) (W : Fin 128 → Fin 128 → EReal) (b : Fin 128 → EReal)
    (r : Fin 600000 → Fin 50000) (d : Fin 600000 → ℤ) : Fin 50000 → Fin 128 → EReal :=
  fun n h => z + ∑ e ∈ Finset.univ.filter (fun e : Fin 600000 => d e = (n.val : ℤ)), max (lin (X (r e)) W b h) z

/-- The whole network at node `n`, class `j`. -/
def net (X : Fin 50000 → Fin 128 → EReal) (W1 : Fin 128 → Fin 128 → EReal) (b1 : Fin 128 → EReal)
    (W2 : Fin 128 → Fin 128 → EReal) (b2 : Fin 128 → EReal) (Wfc : Fin 40 → Fin 128 → EReal) (bfc : Fin 40 → EReal)
    (r : Fin 600000 → Fin 50000) (d : Fin 600000 → ℤ) (n : Fin 50000) (j : Fin 40) : EReal :=
  lin (conv (conv X W1 b1 r d) W2 b2 r d n) Wfc bfc j

/-- The network of the nine argument arrays, as both programs are handed them. -/
def netOf (a0 : FVec Ideal ⟨3, ![1, 50000, 128]⟩ .f32) (a1 : FVec Ideal ⟨2, ![128, 128]⟩ .f32) (a2 : FVec Ideal ⟨1, ![128]⟩ .f32)
    (a3 : FVec Ideal ⟨2, ![128, 128]⟩ .f32) (a4 : FVec Ideal ⟨1, ![128]⟩ .f32) (a5 : FVec Ideal ⟨2, ![40, 128]⟩ .f32)
    (a6 : FVec Ideal ⟨1, ![40]⟩ .f32) (a7 a8 : IVec ⟨1, ![600000]⟩ 32) (n : Fin 50000) (j : Fin 40) : EReal :=
  net (fun n k => a0 (ix3 0 n k)) (fun h k => a1 (ix2 h k)) (fun h => a2 (ix1 h)) (fun h k => a3 (ix2 h k)) (fun h => a4 (ix1 h))
    (fun h k => a5 (ix2 h k)) (fun h => a6 (ix1 h)) (fun e => rowIdx (a7 (ix1 e))) (fun e => (a8 (ix1 e)).toInt) n j

end Cert.GNN

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KTake.lean ====
/-
  The kernel's two host steps between its matrix products, as functions of arrays, and what they hold.

  `take H a7`: edge `e` takes the row of the table `H` its source word names — the word wrapped (a negative word
  counts from the end), read signed and clamped by the gather —, and a word that is no row number gets a fill
  instead. Where every source word is a row number the fill is never taken: edge `e` holds row `rowIdx (a7 e)`.

  `scat E a8`: the rows `E` summed into a zero table at the destination words: row `n` holds zero plus the sum of
  the rows of the edges that end at `n`.
-/
import proofs.«402194_j8358006358160_2_alg».proof.Proof.Gen.KernelIdeal
import proofs.«402194_j8358006358160_2_alg».proof.Proof.Spec
import proofs.«402194_j8358006358160_2_alg».proof.Proof.LibRows
import Idealize.ShloMosaic.Lib.ReduceAll
import Idealize.ShloMosaic.Lib.StableHlo.Predicate

noncomputable section

open scoped BigOperators

namespace Cert.KernelIdeal.KTake

open Cert.KernelIdeal Idealize.ShloMosaic Idealize.ShloMosaic.ValueIdx Cert.GNN
open Facts₀ Facts

/-- The source words as the column of row numbers the gather reads: wrapped, then laid out as `[600000, 1]`. -/
def wrapCol (a7 : IVec S600000 32) : IVec S600000x1 32 :=
  broadcastInDim S600000x1 ![0] bcast_S600000_S600000x1_0
    (select (cmpi .slt a7 (broadcastInDim S600000 ![] bcast_S_S600000 (constantI S_ 32 0#32)))
      (addi a7 (broadcastInDim S600000 ![] bcast_S_S600000 (constantI S_ 32 50000#32))) a7)

/-- Every edge's source row, or a fill where the wrapped word is no row number. -/
def take (H : FVec Ideal S50000x128 .f32) (a7 : IVec S600000 32) : FVec Ideal S600000x128 .f32 :=
  select
    (broadcastInDim S600000x128 ![0] bcast_S600000_S600000x128_0
      (Host.reduce IntOp.andi
        (andi (cmpi .sge (wrapCol a7) (broadcastInDim S600000x1 ![] bcast_S_S600000x1 (constantI S_ 32 0#32)))
          (cmpi .sle (wrapCol a7) (broadcastInDim S600000x1 ![0, 1] bcast_S1x1_S600000x1_0_1
            (broadcastInDim S1x1 ![1] bcast_S1_S1x1_1 (constantI S1 32 49999#32)))))
        (constantI S_ 1 1#1) reducesTo_S600000x1_S600000_d1 h_S_))
    (Host.gather gather_S50000x128_S600000x1_S600000x128_1_0_n_n_0_1_1128 H (wrapCol a7))
    (broadcastInDim S600000x128 ![] bcast_S_S600000x128 (constant S_ .f32 0x7FC00000#32))

/-- The edges' rows summed into a zero table at the destination words. -/
def scat (E : FVec Ideal S600000x128 .f32) (a8 : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 a8) E

/-- The wrapped column at `(e, 0)` is the wrapped word of edge `e`. -/
private theorem wrapCol_apply (a7 : IVec S600000 32) (e : Fin 600000) (o : Fin 1) :
    wrapCol a7 (ix2 e o) = wrapWord (a7 (ix1 e)) := by
  unfold wrapCol
  refine (broadcastInDim_apply _ _ _ _ (ix1 e) ?_).trans ?_
  · intro a
    match a with
    | ⟨0, _⟩ =>
      rw [if_neg (show ¬ (S600000.size ⟨0, by decide⟩ = 1) by decide)]
      rfl
  · rfl

/-- A left fold by `and` from 1 over 1s is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_one f hf l

/-- Where every source word is a row number, both bounds hold at every edge, so their conjunction over the
    unit axis is one at every edge. -/
private theorem mask_one (a7 : IVec S600000 32) (h : InRange a7) (j : S600000.Idx) :
    Host.reduce IntOp.andi
        (andi (cmpi .sge (wrapCol a7) (broadcastInDim S600000x1 ![] bcast_S_S600000x1 (constantI S_ 32 0#32)))
          (cmpi .sle (wrapCol a7) (broadcastInDim S600000x1 ![0, 1] bcast_S1x1_S600000x1_0_1
            (broadcastInDim S1x1 ![1] bcast_S1_S1x1_1 (constantI S1 32 49999#32)))))
        (constantI S_ 1 1#1) reducesTo_S600000x1_S600000_d1 h_S_ j = 1#1 := by
  rw [Host.reduce_eq_foldl]
  refine foldl_andi_one _ (fun i => ?_) _
  obtain ⟨e, o, rfl⟩ : ∃ (e : Fin 600000) (o : Fin 1), i = ix2 e o := ⟨i 0, i 1, eq_ix2 i⟩
  show IntOp.andi (IntOp.cmpi .sge (wrapCol a7 (ix2 e o)) 0#32) (IntOp.cmpi .sle (wrapCol a7 (ix2 e o)) 49999#32) = 1#1
  rw [wrapCol_apply]
  obtain ⟨h0, h1⟩ := wrapWord_inRange _ (h e)
  rw [IntOp.andi_eq_one, IntOp.cmpi_sge, IntOp.cmpi_sle,
    show (0#32 : BitVec 32).toInt = 0 from by decide, show (49999#32 : BitVec 32).toInt = 49999 from by decide]
  exact ⟨h0, h1⟩

/-- A mask that is one at every edge, laid along the rows, is one at every entry. -/
private theorem bcast_one (m : IVec S600000 1) (hm : ∀ j, m j = 1#1) (i : S600000x128.Idx) :
    broadcastInDim S600000x128 ![0] bcast_S600000_S600000x128_0 m i = 1#1 := hm _

/-- Where every source word is a row number, edge `e` holds the row it names. -/
theorem take_apply (H : FVec Ideal S50000x128 .f32) (a7 : IVec S600000 32) (h : InRange a7) (e : Fin 600000) (q : Fin 128) :
    take H a7 (ix2 e q) = H (ix2 (rowIdx (a7 (ix1 e))) q) := by
  unfold take
  rw [select_apply, bcast_one _ (mask_one a7 h)]
  show Host.gather (rowGatherDims 50000 600000 128 Facts₀.gather_S50000x128_S600000x1_S600000x128_1_0_n_n_0_1_1128_wf)
      H (wrapCol a7) (ix2 e q) = _
  rw [rowGather_apply (by decide : 0 < 50000)]
  have hr : (⟨min (wrapCol a7 (ix2 e (0 : Fin 1))).toInt.toNat (50000 - 1), by omega⟩ : Fin 50000)
      = rowIdx (a7 (ix1 e)) := by
    unfold rowIdx
    refine Fin.ext ?_
    show min (wrapCol a7 (ix2 e (0 : Fin 1))).toInt.toNat (50000 - 1)
      = min (wrapWord (a7 (ix1 e))).toInt.toNat (50000 - 1)
    rw [wrapCol_apply]
  exact congrArg (fun r => H (ix2 r q)) hr

/-- Row `n` of the summed table: zero plus the rows of the edges that end at `n`. -/
theorem scat_apply (E : FVec Ideal S600000x128 .f32) (a8 : IVec S600000 32) (n : Fin 50000) (q : Fin 128) :
    scat E a8 (ix2 n q)
      = z + ∑ e ∈ Finset.univ.filter (fun e : Fin 600000 => (a8 (ix1 e)).toInt = (n.val : ℤ)), E (ix2 e q) := by
  unfold scat
  show Host.scatterAdd (F := Ideal)
      (rowScatterDims 50000 600000 128 Facts₀.scatter_S50000x128_S600000x1_S600000x128_1_0_0_1_wf) _ _ _ (ix2 n q) = _
  rw [rowScatterAdd_apply]
  have hcol : ∀ e : Fin 600000,
      broadcastInDim S600000x1 ![0] bcast_S600000_S600000x1_0 a8 (ix2 e (0 : Fin 1)) = a8 (ix1 e) := by
    intro e
    refine broadcastInDim_apply _ _ _ _ _ ?_
    intro a
    match a with
    | ⟨0, _⟩ =>
      rw [if_neg (show ¬ (S600000.size ⟨0, by decide⟩ = 1) by decide)]
      rfl
  simp only [hcol]
  rfl

end Cert.KernelIdeal.KTake

end
-- ==== Proof.KTail.lean ====
/-
  The kernel's last layer as a function of arrays: the class weights and biases padded with zero rows up to 128
  classes, the padded weight transposed, one matrix product with the bias row added, and the first 40 classes
  cut out again. An entry of the first 40 classes never reads a padded row: it is the affine map of the
  40-class weights and biases.
-/
import proofs.«402194_j8358006358160_2_alg».proof.Proof.Gen.KernelIdeal
import proofs.«402194_j8358006358160_2_alg».proof.Proof.Spec
import Idealize.ShloMosaic.Lib.Pipeline.Value
import Idealize.ShloMosaic.Lib.ValueLayout
import Idealize.ShloMosaic.Lib.KernelVsHost

noncomputable section

open scoped BigOperators

namespace Cert.KernelIdeal.KTail

open Cert.KernelIdeal Idealize.ShloMosaic Idealize.ShloMosaic.ValueIdx Cert.GNN
open Facts₀ Facts

/-- The weights of a layer as the matrix product reads them: transposed. -/
def wT (a : FVec Ideal S128x128 .f32) : FVec Ideal S128x128 .f32 :=
  transpose S128x128 [1, 0] a transposes_S128x128_S128x128_1_0

/-- The biases of a layer as one row. -/
def bRow (a : FVec Ideal S128 .f32) : FVec Ideal S1x128 .f32 :=
  shapeCast S1x128 a shapeCasts_S128_S1x128

/-- The node table out of its leading unit axis. -/
def table (a0 : FVec Ideal S1x50000x128 .f32) : FVec Ideal S50000x128 .f32 :=
  shapeCast S50000x128 a0 shapeCasts_S1x50000x128_S50000x128

/-- The class weights padded with zero rows up to 128 classes. -/
def padW (a5 : FVec Ideal S40x128 .f32) : FVec Ideal S128x128 .f32 :=
  pad S128x128 ![0, 0] ![88, 0] ![0, 0] a5 (sitofp .f32 (constantI S_ 32 0#32)) pads_S40x128_S128x128_0880_000 h_S_

/-- The class biases padded with zeros up to 128 classes. -/
def padB (a6 : FVec Ideal S40 .f32) : FVec Ideal S128 .f32 :=
  pad S128 ![0] ![88] ![0] a6 (sitofp .f32 (constantI S_ 32 0#32)) pads_S40_S128_0880 h_S_

/-- The first 40 classes of a 128-class table, under a leading unit axis. -/
def cut (O : FVec Ideal S50000x128 .f32) : FVec Ideal S1x50000x40 .f32 :=
  broadcastInDim S1x50000x40 ![1, 2] bcast_S50000x40_S1x50000x40_1_2
    (extractStridedSlice S50000x40 ![0, 0] O slices_S50000x128_S50000x40_0_0)

theorem wT_apply (a : FVec Ideal S128x128 .f32) (k h : Fin 128) : wT a (ix2 k h) = a (ix2 h k) := by
  unfold wT
  exact transpose_ix2_apply a transposes_S128x128_S128x128_1_0 k h

theorem bRow_apply (a : FVec Ideal S128 .f32) (h : Fin 128) : bRow a (ix2 (0 : Fin 1) h) = a (ix1 h) := by
  unfold bRow
  exact shapeCast_a_1a_apply a shapeCasts_S128_S1x128 (0 : Fin 1) h

theorem table_apply (a0 : FVec Ideal S1x50000x128 .f32) (n : Fin 50000) (k : Fin 128) :
    table a0 (ix2 n k) = a0 (ix3 (0 : Fin 1) n k) := by
  unfold table
  exact shapeCast_1ab_ab_apply a0 shapeCasts_S1x50000x128_S50000x128 n k

/-- A padded weight entry of one of the first 40 classes is the weight entry. -/
theorem padW_apply (a5 : FVec Ideal S40x128 .f32) (j : Fin 40) (k : Fin 128) :
    padW a5 (ix2 (⟨j.val, by omega⟩ : Fin 128) k) = a5 (ix2 j k) := by
  unfold padW
  exact pad_apply_of_inside _ _ _ a5 _ pads_S40x128_S128x128_0880_000 h_S_ _ (ix2 j k) fun a => match a with
    | ⟨0, _⟩ => by show j.val = 0 + j.val * (0 + 1); omega
    | ⟨1, _⟩ => by show k.val = 0 + k.val * (0 + 1); omega

/-- A padded bias of one of the first 40 classes is the bias. -/
theorem padB_apply (a6 : FVec Ideal S40 .f32) (j : Fin 40) :
    padB a6 (ix1 (⟨j.val, by omega⟩ : Fin 128)) = a6 (ix1 j) := by
  unfold padB
  exact pad_apply_of_inside _ _ _ a6 _ pads_S40_S128_0880 h_S_ _ (ix1 j) fun a => match a with
    | ⟨0, _⟩ => by show j.val = 0 + j.val * (0 + 1); omega

/-- The cut reads the table at the same node and class. -/
theorem cut_apply (O : FVec Ideal S50000x128 .f32) (n : Fin 50000) (j : Fin 40) :
    cut O (ix3 (0 : Fin 1) n j) = O (ix2 n (⟨j.val, by omega⟩ : Fin 128)) := by
  unfold cut
  refine (broadcastInDim_apply _ bcast_S50000x40_S1x50000x40_1_2 _ _ (ix2 n j) fun a => match a with
    | ⟨0, _⟩ => by show n.val = if (50000 : Nat) = 1 then 0 else n.val; rw [if_neg (by decide)]
    | ⟨1, _⟩ => by show j.val = if (40 : Nat) = 1 then 0 else j.val; rw [if_neg (by decide)]).trans ?_
  exact extractStridedSlice_apply _ O slices_S50000x128_S50000x40_0_0 (ix2 n j) (ix2 n (⟨j.val, by omega⟩ : Fin 128))
    fun a => match a with
    | ⟨0, _⟩ => by show n.val = 0 + n.val; omega
    | ⟨1, _⟩ => by show j.val = 0 + j.val; omega

end Cert.KernelIdeal.KTail

end
-- ==== Proof.KValue.lean ====
/-
  The kernel's program read as a value. Its run leaves in the result buffer what a fold through the host
  stretches and the three regions leaves there; this module walks that fold back to the argument arrays:
  region 0 applies the first layer's clipped affine map to every row of the node table; the host gathers each
  edge's source row and sums the edges' rows into their destination rows; region 1 and the host do the same
  with the second layer; region 2 applies the padded class layer and the host cuts the 40 classes out. Entry
  by entry this is the network of the argument arrays — provided every source word is a row number, for the
  kernel's gather fills the edges whose word is none. This module reads the buffers as functions of the arrays
  before them; Proof/KEntry.lean reads them entry by entry.
-/
import proofs.«402194_j8358006358160_2_alg».proof.Proof.Gen.KernelIdeal.Frame
import proofs.«402194_j8358006358160_2_alg».proof.Proof.RegionValue0
import proofs.«402194_j8358006358160_2_alg».proof.Proof.RegionValue1
import proofs.«402194_j8358006358160_2_alg».proof.Proof.RegionValue2
import proofs.«402194_j8358006358160_2_alg».proof.Proof.KTake
import proofs.«402194_j8358006358160_2_alg».proof.Proof.KTail
import proofs.«402194_j8358006358160_2_alg».proof.Proof.Spec
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Cert.KernelIdeal.RegionValue Cert.KernelIdeal.KTake Cert.KernelIdeal.KTail Cert.GNN

variable (m : (ℓ : Loc nD τ sig) → Buf (Elt Ideal) ℓ) (ρ : Dev nD → PrngReg) (c : Dev nD)

/-! ## The argument arrays, read through the fold: no host operation and no region writes one -/

theorem W2_main_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W2_main_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem W2_main_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem W2_main_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem W2_main_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem W2_main_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem W5_main_arg5 : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := W2_main_arg5 m ρ c

theorem W5_main_arg6 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := W2_main_arg6 m ρ c

theorem W5_main_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := W2_main_arg7 m ρ c

theorem W5_main_arg8 : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
      simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := W2_main_arg8 m ρ c

/-! ## The buffers the regions read and the result, as functions of what the fold held before them -/

/-- Region 0 reads the node table out of its unit axis, the first layer's weights transposed, its biases as a row. -/
theorem V1_v0 : V1 m ρ c main_v0 = table (m ((c : Thread nD τ).loc main_arg0)) := by
  show StableHlo.after hostOps0 (W0 m ρ c) (Proc.devRef .tc main_v0) = _
  after_results_simp <;> rfl
theorem V1_v1 : V1 m ρ c main_v1 = wT (m ((c : Thread nD τ).loc main_arg1)) := by
  show StableHlo.after hostOps0 (W0 m ρ c) (Proc.devRef .tc main_v1) = _
  after_results_simp <;> rfl
theorem V1_v2 : V1 m ρ c main_v2 = bRow (m ((c : Thread nD τ).loc main_arg2)) := by
  show StableHlo.after hostOps0 (W0 m ρ c) (Proc.devRef .tc main_v2) = _
  after_results_simp <;> rfl

/-- The first host stretch after a region, over any contents `W`: the edges hold their source rows of the table
    in `main_v3`, by the source words in `main_arg7`. -/
theorem take_of_hostOps1 (W : Valuation τ sig (Elt Ideal)) (H : FVec Ideal S50000x128 .f32) (a7 : IVec S600000 32)
    (h3 : W (Proc.devRef .tc main_v3) = H) (h7 : W (Proc.devRef .tc main_arg7) = a7) :
    StableHlo.after hostOps1 W (Proc.devRef .tc main_v4) = take H a7 := by
  after_results_simp
  rw [h3, h7]
  simp only [cast_eq]
  unfold take wrapCol
  rfl

/-- The same stretch before region 2, on region 1's table `main_v10`. -/
theorem take_of_hostOps2 (W : Valuation τ sig (Elt Ideal)) (H : FVec Ideal S50000x128 .f32) (a7 : IVec S600000 32)
    (h3 : W (Proc.devRef .tc main_v10) = H) (h7 : W (Proc.devRef .tc main_arg7) = a7) :
    StableHlo.after hostOps2 W (Proc.devRef .tc main_v11) = take H a7 := by
  after_results_simp
  rw [h3, h7]
  simp only [cast_eq]
  unfold take wrapCol
  rfl

theorem W3_main_arg8 : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg8 m ρ c)

/-- After the first host stretch the edges hold their source rows of region 0's table. -/
theorem W3_v4 : W3 m ρ c (Proc.devRef .tc main_v4) = take (W2 m ρ c (Proc.devRef .tc main_v3)) (m ((c : Thread nD τ).loc main_arg7)) :=
  take_of_hostOps1 (W2 m ρ c) _ _ rfl (W2_main_arg7 m ρ c)

/-- Region 1 reads the edges' rows of region 0's table summed into their destinations, the second layer's weights
    transposed, its biases as a row. -/
theorem V4_v7 : V4 m ρ c main_v7 = scat (take (W2 m ρ c (Proc.devRef .tc main_v3)) (m ((c : Thread nD τ).loc main_arg7))) (m ((c : Thread nD τ).loc main_arg8)) := by
  have h8 := W3_main_arg8 m ρ c
  have h4 := W3_v4 m ρ c
  show StableHlo.after hostOps1_1 (W3 m ρ c) (Proc.devRef .tc main_v7) = _
  generalize W3 m ρ c = W at h8 h4 ⊢
  after_results_simp
  rw [h8, h4]
  rfl
theorem W3_main_arg3 : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg3 m ρ c)
theorem W3_main_arg4 : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg4 m ρ c)
theorem V4_v8 : V4 m ρ c main_v8 = wT (m ((c : Thread nD τ).loc main_arg3)) := by
  have h3 := W3_main_arg3 m ρ c
  show StableHlo.after hostOps1_1 (W3 m ρ c) (Proc.devRef .tc main_v8) = _
  generalize W3 m ρ c = W at h3 ⊢
  after_results_simp
  rw [h3]
  rfl
theorem V4_v9 : V4 m ρ c main_v9 = bRow (m ((c : Thread nD τ).loc main_arg4)) := by
  have h4 := W3_main_arg4 m ρ c
  show StableHlo.after hostOps1_1 (W3 m ρ c) (Proc.devRef .tc main_v9) = _
  generalize W3 m ρ c = W at h4 ⊢
  after_results_simp
  rw [h4]
  rfl

/-! ## Before region 2: the second sum, and the class layer padded, transposed and laid out as a row -/

theorem W6_main_arg5 : W6 m ρ c (Proc.devRef .tc main_arg5) = m ((c : Thread nD τ).loc main_arg5) :=
  (StableHlo.after_of_forall_not_mem (b := Proc.devRef .tc main_arg5) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg5 m ρ c)

theorem W6_main_arg6 : W6 m ρ c (Proc.devRef .tc main_arg6) = m ((c : Thread nD τ).loc main_arg6) :=
  (StableHlo.after_of_forall_not_mem (b := Proc.devRef .tc main_arg6) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg6 m ρ c)

theorem W6_main_arg8 : W6 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_main_arg8 m ρ c)

/-- The five short stretches before region 2, over any contents `W`: the edges' rows in `main_v11` are summed
    into their destinations. -/
theorem scat_of_hostOps2 (W : Valuation τ sig (Elt Ideal)) (E : FVec Ideal S600000x128 .f32) (a8 : IVec S600000 32)
    (h11 : W (Proc.devRef .tc main_v11) = E) (h8 : W (Proc.devRef .tc main_arg8) = a8) :
    StableHlo.after hostOps2_5 (StableHlo.after hostOps2_4 (StableHlo.after hostOps2_3 (StableHlo.after hostOps2_2 (StableHlo.after hostOps2_1 W)))) (Proc.devRef .tc main_v14) = scat E a8 := by
  after_results_simp
  rw [h11, h8]
  rfl

/-- … the class weights are padded to 128 classes and transposed. -/
theorem padW_of_hostOps2 (W : Valuation τ sig (Elt Ideal)) (a5 : FVec Ideal S40x128 .f32)
    (h5 : W (Proc.devRef .tc main_arg5) = a5) :
    StableHlo.after hostOps2_5 (StableHlo.after hostOps2_4 (StableHlo.after hostOps2_3 (StableHlo.after hostOps2_2 (StableHlo.after hostOps2_1 W)))) (Proc.devRef .tc main_v17) = wT (padW a5) := by
  after_results_simp
  rw [h5]
  simp only [cast_eq]
  rfl

/-- … the class biases are padded to 128 classes and laid out as a row. -/
theorem padB_of_hostOps2 (W : Valuation τ sig (Elt Ideal)) (a6 : FVec Ideal S40 .f32)
    (h6 : W (Proc.devRef .tc main_arg6) = a6) :
    StableHlo.after hostOps2_5 (StableHlo.after hostOps2_4 (StableHlo.after hostOps2_3 (StableHlo.after hostOps2_2 (StableHlo.after hostOps2_1 W)))) (Proc.devRef .tc main_v18) = bRow (padB a6) := by
  after_results_simp
  rw [h6]
  simp only [cast_eq]
  rfl

/-- Region 2 reads the edges' rows of region 1's table summed into their destinations, the padded class weights
    transposed, the padded class biases as a row. -/
theorem V11_v14 : V11 m ρ c main_v14 = scat (take (W5 m ρ c (Proc.devRef .tc main_v10)) (m ((c : Thread nD τ).loc main_arg7))) (m ((c : Thread nD τ).loc main_arg8)) :=
  scat_of_hostOps2 (W6 m ρ c) _ _ (take_of_hostOps2 (W5 m ρ c) _ _ rfl (W5_main_arg7 m ρ c)) (W6_main_arg8 m ρ c)
theorem V11_v17 : V11 m ρ c main_v17 = wT (padW (m ((c : Thread nD τ).loc main_arg5))) :=
  padW_of_hostOps2 (W6 m ρ c) _ (W6_main_arg5 m ρ c)
theorem V11_v18 : V11 m ρ c main_v18 = bRow (padB (m ((c : Thread nD τ).loc main_arg6))) :=
  padB_of_hostOps2 (W6 m ρ c) _ (W6_main_arg6 m ρ c)

/-- The result buffer: the first 40 classes of region 2's table. -/
theorem W13_v21 : W13 m ρ c (Proc.devRef .tc main_v21) = cut (W12 m ρ c (Proc.devRef .tc main_v19)) := by
  show StableHlo.after hostOps3 (W12 m ρ c) (Proc.devRef .tc main_v21) = _
  generalize W12 m ρ c = W
  after_results_simp
  rfl

/-! ## What the three regions leave, by the arrays before them -/

theorem W2_v3 : W2 m ρ c (Proc.devRef .tc main_v3)
    = value0 (table (m ((c : Thread nD τ).loc main_arg0))) (wT (m ((c : Thread nD τ).loc main_arg1))) (bRow (m ((c : Thread nD τ).loc main_arg2))) := by
  rw [← V1_v0 m ρ c, ← V1_v1 m ρ c, ← V1_v2 m ρ c]
  exact (W2_arr m ρ c 3).trans (final0 (V1 m ρ) c)

theorem W5_v10 : W5 m ρ c (Proc.devRef .tc main_v10)
    = value1 (scat (take (W2 m ρ c (Proc.devRef .tc main_v3)) (m ((c : Thread nD τ).loc main_arg7))) (m ((c : Thread nD τ).loc main_arg8))) (wT (m ((c : Thread nD τ).loc main_arg3))) (bRow (m ((c : Thread nD τ).loc main_arg4))) := by
  rw [← V4_v7 m ρ c, ← V4_v8 m ρ c, ← V4_v9 m ρ c]
  exact (W5_arr m ρ c 3).trans (final1 (V4 m ρ) c)

theorem W12_v19 : W12 m ρ c (Proc.devRef .tc main_v19)
    = value2 (scat (take (W5 m ρ c (Proc.devRef .tc main_v10)) (m ((c : Thread nD τ).loc main_arg7))) (m ((c : Thread nD τ).loc main_arg8))) (wT (padW (m ((c : Thread nD τ).loc main_arg5)))) (bRow (padB (m ((c : Thread nD τ).loc main_arg6)))) := by
  rw [← V11_v14 m ρ c, ← V11_v17 m ρ c, ← V11_v18 m ρ c]
  exact (W12_arr m ρ c 3).trans (final2 (V11 m ρ) c)

end Cert.KernelIdeal.KValue

end
-- ==== Proof.KEntry.lean ====
/-
  The kernel's result, entry by entry: at node `n`, class `j` it is the network of the argument arrays,
  where every source word is a row number. One convolution as the kernel computes it is the convolution of
  the table's entries: the sum over the edges that end at `n` of the clipped affine image of the row the edge
  starts from — the image taken from the table of images, which is where the kernel differs from the reference
  and where reading a row commutes with a map applied row by row.
-/
import proofs.«402194_j8358006358160_2_alg».proof.Proof.KValue

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Cert.KernelIdeal.RegionValue Cert.KernelIdeal.KTake Cert.KernelIdeal.KTail Cert.GNN

variable (m : (ℓ : Loc nD τ sig) → Buf (Elt Ideal) ℓ) (ρ : Dev nD → PrngReg) (c : Dev nD)

/-- One convolution as the kernel computes it — the clipped affine map on every row of a table `T`, the edges'
    source rows taken, the rows summed at the destinations — is the convolution of the table's entries. -/
theorem layer_apply (T : FVec Ideal S50000x128 .f32) (Wm : FVec Ideal S128x128 .f32) (b : FVec Ideal S128 .f32)
    (a7 a8 : IVec S600000 32) (hr : InRange a7) (X : Fin 50000 → Fin 128 → EReal)
    (hT : ∀ n k, T (ix2 n k) = X n k) (n : Fin 50000) (h : Fin 128) :
    scat (take (value0 T (wT Wm) (bRow b)) a7) a8 (ix2 n h)
      = conv X (fun h k => Wm (ix2 h k)) (fun h => b (ix1 h)) (fun e => rowIdx (a7 (ix1 e))) (fun e => (a8 (ix1 e)).toInt) n h := by
  rw [scat_apply]
  unfold conv
  show z + ∑ e ∈ Finset.univ.filter (fun e : Fin 600000 => (a8 (ix1 e)).toInt = (n.val : ℤ)), _
    = z + ∑ e ∈ Finset.univ.filter (fun e : Fin 600000 => (a8 (ix1 e)).toInt = (n.val : ℤ)), _
  refine congrArg (fun s => z + s) (Finset.sum_congr rfl fun e _ => ?_)
  rw [take_apply _ _ hr]
  show max ((∑ k : Fin 128, T (ix2 (rowIdx (a7 (ix1 e))) k) * wT Wm (ix2 k h)) + bRow b (ix2 (0 : Fin 1) h)) _ = _
  simp only [wT_apply, bRow_apply, hT]
  rfl

/-- The table region 1 reads is the first convolution of the node table. -/
theorem first_conv (hr : InRange (m ((c : Thread nD τ).loc main_arg7))) (n : Fin 50000) (k : Fin 128) :
    (scat (take (value0 (table (m ((c : Thread nD τ).loc main_arg0))) (wT (m ((c : Thread nD τ).loc main_arg1))) (bRow (m ((c : Thread nD τ).loc main_arg2)))) (m ((c : Thread nD τ).loc main_arg7))) (m ((c : Thread nD τ).loc main_arg8))) (ix2 n k) = conv (fun n k => (m ((c : Thread nD τ).loc main_arg0)) (ix3 (0 : Fin 1) n k)) (fun h k => (m ((c : Thread nD τ).loc main_arg1)) (ix2 h k)) (fun h => (m ((c : Thread nD τ).loc main_arg2)) (ix1 h)) (fun e => rowIdx ((m ((c : Thread nD τ).loc main_arg7)) (ix1 e))) (fun e => ((m ((c : Thread nD τ).loc main_arg8)) (ix1 e)).toInt) n k :=
  layer_apply _ _ _ _ _ hr _ (fun n' k' => table_apply _ n' k') n k

/-- The table region 2 reads is the second convolution. -/
theorem second_conv (hr : InRange (m ((c : Thread nD τ).loc main_arg7))) (n : Fin 50000) (k : Fin 128) :
    (scat (take (value1 (scat (take (value0 (table (m ((c : Thread nD τ).loc main_arg0))) (wT (m ((c : Thread nD τ).loc main_arg1))) (bRow (m ((c : Thread nD τ).loc main_arg2)))) (m ((c : Thread nD τ).loc main_arg7))) (m ((c : Thread nD τ).loc main_arg8))) (wT (m ((c : Thread nD τ).loc main_arg3))) (bRow (m ((c : Thread nD τ).loc main_arg4)))) (m ((c : Thread nD τ).loc main_arg7))) (m ((c : Thread nD τ).loc main_arg8))) (ix2 n k) = conv (conv (fun n k => (m ((c : Thread nD τ).loc main_arg0)) (ix3 (0 : Fin 1) n k)) (fun h k => (m ((c : Thread nD τ).loc main_arg1)) (ix2 h k)) (fun h => (m ((c : Thread nD τ).loc main_arg2)) (ix1 h)) (fun e => rowIdx ((m ((c : Thread nD τ).loc main_arg7)) (ix1 e))) (fun e => ((m ((c : Thread nD τ).loc main_arg8)) (ix1 e)).toInt)) (fun h k => (m ((c : Thread nD τ).loc main_arg3)) (ix2 h k)) (fun h => (m ((c : Thread nD τ).loc main_arg4)) (ix1 h)) (fun e => rowIdx ((m ((c : Thread nD τ).loc main_arg7)) (ix1 e))) (fun e => ((m ((c : Thread nD τ).loc main_arg8)) (ix1 e)).toInt) n k :=
  layer_apply _ _ _ _ _ hr _ (fun n' k' => first_conv m c hr n' k') n k

/-- THE KERNEL'S RESULT at node `n`, class `j`, where every source word is a row number: the network of the
    argument arrays. -/
theorem kernel_value (hr : InRange (m ((c : Thread nD τ).loc main_arg7))) (n : Fin 50000) (j : Fin 40) :
    W13 m ρ c (Proc.devRef .tc main_v21) (ix3 (0 : Fin 1) n j)
      = netOf (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) n j := by
  rw [W13_v21, cut_apply, W12_v19, W5_v10, W2_v3]
  show (∑ k : Fin 128, (scat (take (value1 (scat (take (value0 (table (m ((c : Thread nD τ).loc main_arg0))) (wT (m ((c : Thread nD τ).loc main_arg1))) (bRow (m ((c : Thread nD τ).loc main_arg2)))) (m ((c : Thread nD τ).loc main_arg7))) (m ((c : Thread nD τ).loc main_arg8))) (wT (m ((c : Thread nD τ).loc main_arg3))) (bRow (m ((c : Thread nD τ).loc main_arg4)))) (m ((c : Thread nD τ).loc main_arg7))) (m ((c : Thread nD τ).loc main_arg8))) (ix2 n k) * wT (padW (m ((c : Thread nD τ).loc main_arg5))) (ix2 k (⟨j.val, by omega⟩ : Fin 128)))
      + bRow (padB (m ((c : Thread nD τ).loc main_arg6))) (ix2 (0 : Fin 1) (⟨j.val, by omega⟩ : Fin 128)) = _
  simp only [second_conv m c hr, wT_apply, bRow_apply, padW_apply, padB_apply]
  unfold netOf net lin
  rfl

end Cert.KernelIdeal.KValue

end
-- ==== Proof.LibRows3.lean ====
/-
  General lemmas for ROW indexing of a rank-3 array with a leading axis of size one, as `x[:, idx, :]` and a
  batched `zeros.at[idx].add(u)` lower for an array `[1, N, C]` and a rank-1 list of row numbers (held as an
  `[E, 1]` column):

  * a row gather — operand `[1, N, C]`, start indices `[E, 1]`, result `[1, E, C]`, the row axis collapsed —
    read at `(0, e, c)` is the operand at `(0, idx[e, 0], c)`, the row number read signed and clamped into `[0, N − 1]`;
  * at the ideal values a row scatter-add — operand `[1, N, C]`, scatter indices `[E, 1]`, updates `[1, E, C]` —
    read at `(0, n, c)` is the operand's entry plus the sum, over the list positions `e` whose row number
    `idx[e, 0]` (read signed, not clamped) is `n`, of the updates' entries `(0, e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather under a leading unit axis: operand `[1, N, C]`, start indices `[E, 1]`,
    result `[1, E, C]`. -/
abbrev midGatherDims (N E C : ℕ)
    (wf : GatherDims.WF ⟨3, ![1, N, C]⟩ ⟨2, ![E, 1]⟩ ⟨3, ![1, E, C]⟩ [0, 2] [1] [] [1] [] 1 ![1, 1, C]) :
    GatherDims ⟨3, ![1, N, C]⟩ ⟨2, ![E, 1]⟩ ⟨3, ![1, E, C]⟩ where
  offsetDims := [0, 2]
  collapsedSliceDims := [1]
  operandBatchingDims := []
  startIndicesBatchingDims := []
  startIndexMap := [1]
  indexVectorDim := 1
  sliceSizes := ![1, 1, C]
  wf := wf

/-- THE ROW GATHER READ AT `(0, e, c)`: the operand at row `idx[e, 0]`, read signed and clamped into
    `[0, N − 1]`, column `c`. -/
theorem midGather_apply {α : Type} {N E C w : ℕ} (hN : 0 < N)
    (wf : GatherDims.WF ⟨3, ![1, N, C]⟩ ⟨2, ![E, 1]⟩ ⟨3, ![1, E, C]⟩ [0, 2] [1] [] [1] [] 1 ![1, 1, C])
    (x : (⟨3, ![1, N, C]⟩ : Shape).Idx → α) (idx : IVec ⟨2, ![E, 1]⟩ w) (e : Fin E) (c : Fin C) :
    Host.gather (midGatherDims N E C wf) x idx (ix3 (0 : Fin 1) e c)
      = x (ix3 (0 : Fin 1) (⟨min (idx (ix2 e (0 : Fin 1))).toInt.toNat (N - 1), by omega⟩ : Fin N) c) := by
  unfold Host.gather
  congr 1
  funext a
  refine Fin.ext ?_
  have hk : (midGatherDims N E C wf).sKept = [(0 : Fin 3), (2 : Fin 3)] := rfl
  match a with
  | ⟨0, _⟩ =>
    show (midGatherDims N E C wf).start (ix3 (0 : Fin 1) e c) idx 0 + (midGatherDims N E C wf).batchCoord (ix3 (0 : Fin 1) e c) 0
      + (midGatherDims N E C wf).offCoord (ix3 (0 : Fin 1) e c) 0 = 0
    rw [GatherDims.batchCoord_eq_zero _ _ _ List.not_mem_nil]
    have hs : (midGatherDims N E C wf).start (ix3 (0 : Fin 1) e c) idx 0 = 0 := by
      unfold GatherDims.start
      rw [dif_neg (show (0 : Fin 3) ∉ (midGatherDims N E C wf).startIndexMap by simp)]
    rw [hs]
    unfold GatherDims.offCoord
    rw [dif_pos (show (0 : Fin 3) ∈ (midGatherDims N E C wf).sKept from by rw [hk]; simp)]
    have hi : List.idxOf (0 : Fin 3) (midGatherDims N E C wf).sKept = 0 := by rw [hk]; exact List.idxOf_cons_self
    simp only [hi, Nat.zero_add]
    rfl
  | ⟨1, _⟩ =>
    show (midGatherDims N E C wf).start (ix3 (0 : Fin 1) e c) idx 1 + (midGatherDims N E C wf).batchCoord (ix3 (0 : Fin 1) e c) 1
      + (midGatherDims N E C wf).offCoord (ix3 (0 : Fin 1) e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims N E C wf).startIndexMap from List.mem_singleton.mpr rfl)]
    have hsi : (midGatherDims N E C wf).siIdx (ix3 (0 : Fin 1) e c) ⟨List.idxOf (1 : Fin 3) (midGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨2, _⟩ =>
    show (midGatherDims N E C wf).start (ix3 (0 : Fin 1) e c) idx 2 + (midGatherDims N E C wf).batchCoord (ix3 (0 : Fin 1) e c) 2
      + (midGatherDims N E C wf).offCoord (ix3 (0 : Fin 1) e c) 2 = c.val
    rw [GatherDims.batchCoord_eq_zero _ _ _ List.not_mem_nil]
    have hs : (midGatherDims N E C wf).start (ix3 (0 : Fin 1) e c) idx 2 = 0 := by
      unfold GatherDims.start
      rw [dif_neg (show (2 : Fin 3) ∉ (midGatherDims N E C wf).startIndexMap by simp)]
    rw [hs]
    unfold GatherDims.offCoord
    rw [dif_pos (show (2 : Fin 3) ∈ (midGatherDims N E C wf).sKept from by rw [hk]; simp)]
    have hi : List.idxOf (2 : Fin 3) (midGatherDims N E C wf).sKept = 1 := by rw [hk]; rfl
    simp only [hi, Nat.zero_add]
    rfl

/-- The dimension numbers of a row scatter under a leading unit axis: operand `[1, N, C]`, scatter indices
    `[E, 1]`, updates `[1, E, C]`. -/
abbrev midScatterDims (N E C : ℕ)
    (wf : ScatterDims.WF ⟨3, ![1, N, C]⟩ ⟨2, ![E, 1]⟩ ⟨3, ![1, E, C]⟩ [0, 2] [1] [1] 1) :
    ScatterDims ⟨3, ![1, N, C]⟩ ⟨2, ![E, 1]⟩ ⟨3, ![1, E, C]⟩ where
  updateWindowDims := [0, 2]
  insertedWindowDims := [1]
  scatterDimsToOperandDims := [1]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Where the update at `(0, e, c')` lands: at `(0, n, c)` exactly when the row number at `e` is `n` and `c' = c`. -/
private theorem midScatter_resultIdx {N E C w : ℕ}
    (wf : ScatterDims.WF ⟨3, ![1, N, C]⟩ ⟨2, ![E, 1]⟩ ⟨3, ![1, E, C]⟩ [0, 2] [1] [1] 1)
    (idx : IVec ⟨2, ![E, 1]⟩ w) (e : Fin E) (c' : Fin C) (n : Fin N) (c : Fin C) :
    (midScatterDims N E C wf).resultIdx? (ix3 (0 : Fin 1) e c') idx = some (ix3 (0 : Fin 1) n c)
      ↔ (idx (ix2 e (0 : Fin 1))).toInt = (n.val : ℤ) ∧ c' = c := by
  have hk : (midScatterDims N E C wf).sKept = [(0 : Fin 3), (2 : Fin 3)] := rfl
  have hs0 : (midScatterDims N E C wf).start (ix3 (0 : Fin 1) e c') idx (0 : Fin 3) = 0 := by
    unfold ScatterDims.start
    rw [dif_neg (show (0 : Fin 3) ∉ (midScatterDims N E C wf).scatterDimsToOperandDims by simp)]
  have hs1 : (midScatterDims N E C wf).start (ix3 (0 : Fin 1) e c') idx (1 : Fin 3) = (idx (ix2 e (0 : Fin 1))).toInt := by
    unfold ScatterDims.start
    rw [dif_pos (show (1 : Fin 3) ∈ (midScatterDims N E C wf).scatterDimsToOperandDims from List.mem_singleton.mpr rfl)]
    have hsi : (midScatterDims N E C wf).siIdx (ix3 (0 : Fin 1) e c') ⟨List.idxOf (1 : Fin 3) (midScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs2 : (midScatterDims N E C wf).start (ix3 (0 : Fin 1) e c') idx (2 : Fin 3) = 0 := by
    unfold ScatterDims.start
    rw [dif_neg (show (2 : Fin 3) ∉ (midScatterDims N E C wf).scatterDimsToOperandDims by simp)]
  have hw0 : (midScatterDims N E C wf).window (ix3 (0 : Fin 1) e c') (0 : Fin 3) = 0 := by
    unfold ScatterDims.window
    rw [dif_pos (show (0 : Fin 3) ∈ (midScatterDims N E C wf).sKept from by rw [hk]; simp)]
    have hi : List.idxOf (0 : Fin 3) (midScatterDims N E C wf).sKept = 0 := by rw [hk]; exact List.idxOf_cons_self
    simp only [hi]
    rfl
  have hw1 : (midScatterDims N E C wf).window (ix3 (0 : Fin 1) e c') (1 : Fin 3) = 0 := by
    unfold ScatterDims.window
    rw [dif_neg (show (1 : Fin 3) ∉ (midScatterDims N E C wf).sKept by rw [hk]; simp)]
  have hw2 : (midScatterDims N E C wf).window (ix3 (0 : Fin 1) e c') (2 : Fin 3) = c'.val := by
    unfold ScatterDims.window
    rw [dif_pos (show (2 : Fin 3) ∈ (midScatterDims N E C wf).sKept from by rw [hk]; simp)]
    have hi : List.idxOf (2 : Fin 3) (midScatterDims N E C wf).sKept = 1 := by rw [hk]; rfl
    simp only [hi]
    rfl
  constructor
  · intro h
    unfold ScatterDims.resultIdx? at h
    split at h
    · rename_i hb
      have h' := Option.some.inj h
      have h1 : ((midScatterDims N E C wf).start (ix3 (0 : Fin 1) e c') idx (1 : Fin 3) + ((midScatterDims N E C wf).window (ix3 (0 : Fin 1) e c') (1 : Fin 3) : ℤ)).toNat = n.val :=
        congrArg (fun f : (⟨3, ![1, N, C]⟩ : Shape).Idx => (f 1).val) h'
      have h2 : ((midScatterDims N E C wf).start (ix3 (0 : Fin 1) e c') idx (2 : Fin 3) + ((midScatterDims N E C wf).window (ix3 (0 : Fin 1) e c') (2 : Fin 3) : ℤ)).toNat = c.val :=
        congrArg (fun f : (⟨3, ![1, N, C]⟩ : Shape).Idx => (f 2).val) h'
      have hb1 := (hb 1).1
      have hb2 := (hb 2).1
      rw [hs1, hw1] at h1 hb1
      rw [hs2, hw2] at h2 hb2
      exact ⟨by omega, Fin.ext (by omega)⟩
    · exact absurd h (by simp)
  · rintro ⟨hrow, rfl⟩
    unfold ScatterDims.resultIdx?
    have hb : ∀ a : Fin 3, 0 ≤ (midScatterDims N E C wf).start (ix3 (0 : Fin 1) e c') idx a + ((midScatterDims N E C wf).window (ix3 (0 : Fin 1) e c') a : ℤ)
        ∧ (midScatterDims N E C wf).start (ix3 (0 : Fin 1) e c') idx a + ((midScatterDims N E C wf).window (ix3 (0 : Fin 1) e c') a : ℤ) < ((⟨3, ![1, N, C]⟩ : Shape).size a : ℤ) := by
      intro a
      match a with
      | ⟨0, _⟩ =>
        show 0 ≤ (midScatterDims N E C wf).start (ix3 (0 : Fin 1) e c') idx (0 : Fin 3) + ((midScatterDims N E C wf).window (ix3 (0 : Fin 1) e c') (0 : Fin 3) : ℤ)
          ∧ (midScatterDims N E C wf).start (ix3 (0 : Fin 1) e c') idx (0 : Fin 3) + ((midScatterDims N E C wf).window (ix3 (0 : Fin 1) e c') (0 : Fin 3) : ℤ) < ((1 : ℕ) : ℤ)
        rw [hs0, hw0]
        omega
      | ⟨1, _⟩ =>
        show 0 ≤ (midScatterDims N E C wf).start (ix3 (0 : Fin 1) e c') idx (1 : Fin 3) + ((midScatterDims N E C wf).window (ix3 (0 : Fin 1) e c') (1 : Fin 3) : ℤ)
          ∧ (midScatterDims N E C wf).start (ix3 (0 : Fin 1) e c') idx (1 : Fin 3) + ((midScatterDims N E C wf).window (ix3 (0 : Fin 1) e c') (1 : Fin 3) : ℤ) < (N : ℤ)
        rw [hs1, hw1, hrow]
        have := n.isLt
        omega
      | ⟨2, _⟩ =>
        show 0 ≤ (midScatterDims N E C wf).start (ix3 (0 : Fin 1) e c') idx (2 : Fin 3) + ((midScatterDims N E C wf).window (ix3 (0 : Fin 1) e c') (2 : Fin 3) : ℤ)
          ∧ (midScatterDims N E C wf).start (ix3 (0 : Fin 1) e c') idx (2 : Fin 3) + ((midScatterDims N E C wf).window (ix3 (0 : Fin 1) e c') (2 : Fin 3) : ℤ) < (C : ℤ)
        rw [hs2, hw2]
        have := c'.isLt
        omega
    rw [dif_pos hb]
    congr 1
    funext a
    refine Fin.ext ?_
    match a with
    | ⟨0, _⟩ =>
      show ((midScatterDims N E C wf).start (ix3 (0 : Fin 1) e c') idx (0 : Fin 3) + ((midScatterDims N E C wf).window (ix3 (0 : Fin 1) e c') (0 : Fin 3) : ℤ)).toNat = 0
      rw [hs0, hw0]
      omega
    | ⟨1, _⟩ =>
      show ((midScatterDims N E C wf).start (ix3 (0 : Fin 1) e c') idx (1 : Fin 3) + ((midScatterDims N E C wf).window (ix3 (0 : Fin 1) e c') (1 : Fin 3) : ℤ)).toNat = n.val
      rw [hs1, hw1, hrow]
      omega
    | ⟨2, _⟩ =>
      show ((midScatterDims N E C wf).start (ix3 (0 : Fin 1) e c') idx (2 : Fin 3) + ((midScatterDims N E C wf).window (ix3 (0 : Fin 1) e c') (2 : Fin 3) : ℤ)).toNat = c'.val
      rw [hs2, hw2]
      omega

/-- THE ROW SCATTER-ADD READ AT `(0, n, c)`, at the ideal values: the operand's entry plus the sum of the
    updates' entries `(0, e, c)` over the positions `e` whose row number is `n`. -/
theorem midScatterAdd_apply {N E C w : ℕ}
    (wf : ScatterDims.WF ⟨3, ![1, N, C]⟩ ⟨2, ![E, 1]⟩ ⟨3, ![1, E, C]⟩ [0, 2] [1] [1] 1)
    (x : FVec Ideal ⟨3, ![1, N, C]⟩ .f32) (idx : IVec ⟨2, ![E, 1]⟩ w) (upd : FVec Ideal ⟨3, ![1, E, C]⟩ .f32)
    (n : Fin N) (c : Fin C) :
    Host.scatterAdd (F := Ideal) (midScatterDims N E C wf) x idx upd (ix3 (0 : Fin 1) n c)
      = x (ix3 (0 : Fin 1) n c) + ∑ e ∈ Finset.univ.filter (fun e : Fin E => (idx (ix2 e (0 : Fin 1))).toInt = (n.val : ℤ)),
          upd (ix3 (0 : Fin 1) e c) := by
  show Ideal.hostScatterAdd (midScatterDims N E C wf) x idx upd (ix3 (0 : Fin 1) n c) = _
  unfold Ideal.hostScatterAdd
  congr 1
  rw [Finset.sum_filter, sum_idx3, Fin.sum_univ_one, Finset.sum_filter]
  refine Finset.sum_congr rfl fun e _ => ?_
  simp only [midScatter_resultIdx]
  by_cases hrow : (idx (ix2 e (0 : Fin 1))).toInt = (n.val : ℤ)
  · simp only [hrow, true_and, if_true]
    rw [Finset.sum_ite_eq' Finset.univ c (fun c' => upd (ix3 (0 : Fin 1) e c'))]
    simp only [Finset.mem_univ, if_true]
  · simp only [hrow, false_and, if_false, Finset.sum_const_zero]

end Idealize.ShloMosaic.ValueIdx

end
-- ==== Proof.RefValue.lean ====
/-
  The reference program's result, read entry by entry: it is the network of the nine argument arrays. Each
  convolution gathers the source rows (the row number wrapped, read signed and clamped), multiplies by the
  weights, adds the bias, clips at zero and sums into the destination rows; the last layer is one affine map.
-/
import proofs.«402194_j8358006358160_2_alg».proof.Proof.Gen.ReferenceIdeal.Read
import proofs.«402194_j8358006358160_2_alg».proof.Proof.Spec
import proofs.«402194_j8358006358160_2_alg».proof.Proof.LibRows3

noncomputable section

open scoped BigOperators

namespace Cert.ReferenceIdeal.RefValue

open Cert.ReferenceIdeal Cert.ReferenceIdeal.Gen Cert.ReferenceIdeal.Read Idealize.ShloMosaic Idealize.ShloMosaic.ValueIdx Cert.GNN

/-- The source word of edge `e` after the wrap: a negative word counts from the end of the table. -/
theorem wrap_apply (x7 : IVec S600000 32) (e : Fin 600000) :
    val_main_v4 (F := Ideal) x7 (ix1 e) = wrapWord (x7 (ix1 e)) := by
  rw [val_main_v4_apply, val_main_v1_apply, val_main_v3_apply, val_main_v0_apply, val_main_v2_apply]
  rfl

/-- The gathered table at edge `e`, column `c`: the table at the row edge `e` reads. -/
theorem gather_apply (X : FVec Ideal S1x50000x128 .f32) (x7 : IVec S600000 32) (e : Fin 600000) (c : Fin 128) :
    val_main_v6 (F := Ideal) X x7 (ix3 (0 : Fin 1) e c) = X (ix3 (0 : Fin 1) (rowIdx (x7 (ix1 e))) c) := by
  unfold val_main_v6
  refine (midGather_apply (N := 50000) (E := 600000) (C := 128) (by decide)
    Facts₀.gather_S1x50000x128_S600000x1_S1x600000x128_02_1_n_n_1_1_11128_wf X (val_main_v5 (F := Ideal) x7) e c).trans ?_
  refine congrArg (fun r => X (ix3 (0 : Fin 1) r c)) (Fin.ext ?_)
  show min (val_main_v5 (F := Ideal) x7 (ix2 e (0 : Fin 1))).toInt.toNat (50000 - 1)
    = min (wrapWord (x7 (ix1 e))).toInt.toNat (50000 - 1)
  have hi : idx_main_v5 (ix2 e (0 : Fin 1)) = ix1 e := by
    funext a; match a with | ⟨0, _⟩ => rfl
  rw [val_main_v5_apply, hi, wrap_apply]

/-- What edge `e` adds, at feature `h`: the affine image of its source row, clipped at zero. -/
theorem upd_apply (X : FVec Ideal S1x50000x128 .f32) (W : FVec Ideal S128x128 .f32) (b : FVec Ideal S128 .f32)
    (x7 : IVec S600000 32) (e : Fin 600000) (h : Fin 128) :
    val_main_v11 (F := Ideal) X W b x7 (ix3 (0 : Fin 1) e h)
      = max (lin (fun k => X (ix3 (0 : Fin 1) (rowIdx (x7 (ix1 e))) k)) (fun h k => W (ix2 h k)) (fun h => b (ix1 h)) h) z := by
  rw [val_main_v11_apply, val_main_v10_apply, val_main_v7_apply, val_main_v9_apply, val_main_v8_apply,
    val_main_call0_v0_apply, val_main_call0_cst_apply]
  have hb : idx_main_v8 (idx_main_v9 (ix3 (0 : Fin 1) e h)) = ix1 h := by
    funext a; match a with | ⟨0, _⟩ => rfl
  have hs : ∀ k : Fin 128, val_main_v6 (F := Ideal) X x7 (lidx_main_v7 (ix3 (0 : Fin 1) e h) k) * W (ridx_main_v7 (ix3 (0 : Fin 1) e h) k)
      = X (ix3 (0 : Fin 1) (rowIdx (x7 (ix1 e))) k) * W (ix2 h k) := fun k => by
    have hl : lidx_main_v7 (ix3 (0 : Fin 1) e h) k = ix3 (0 : Fin 1) e k := by
      funext a; match a with | ⟨0, _⟩ => rfl | ⟨1, _⟩ => rfl | ⟨2, _⟩ => rfl
    have hr : ridx_main_v7 (ix3 (0 : Fin 1) e h) k = ix2 h k := by
      funext a; match a with | ⟨0, _⟩ => rfl | ⟨1, _⟩ => rfl
    rw [hl, hr, gather_apply]
  rw [hb, Finset.sum_congr rfl fun k _ => hs k]
  rfl

/-- ONE CONVOLUTION of the reference, read at row `n`, feature `h`. -/
theorem conv_apply (X : FVec Ideal S1x50000x128 .f32) (W : FVec Ideal S128x128 .f32) (b : FVec Ideal S128 .f32)
    (x7 x8 : IVec S600000 32) (n : Fin 50000) (h : Fin 128) :
    val_main_v15 (F := Ideal) X W b x7 x8 (ix3 (0 : Fin 1) n h)
      = conv (fun n k => X (ix3 (0 : Fin 1) n k)) (fun h k => W (ix2 h k)) (fun h => b (ix1 h))
          (fun e => rowIdx (x7 (ix1 e))) (fun e => (x8 (ix1 e)).toInt) n h := by
  unfold val_main_v15
  refine (midScatterAdd_apply (N := 50000) (E := 600000) (C := 128)
    Facts₀.scatter_S1x50000x128_S600000x1_S1x600000x128_02_1_1_1_wf (val_main_v14 (F := Ideal))
    (val_main_v13 (F := Ideal) x8) (val_main_v11 (F := Ideal) X W b x7) n h).trans ?_
  have hd : ∀ e : Fin 600000, val_main_v13 (F := Ideal) x8 (ix2 e (0 : Fin 1)) = x8 (ix1 e) := fun e => by
    rw [val_main_v13_apply]
    congr 1
    funext a; match a with | ⟨0, _⟩ => rfl
  simp only [hd]
  rw [val_main_v14_apply, val_main_v12_apply, val_main_cst_apply]
  unfold conv
  exact congrArg (fun s => z + s) (Finset.sum_congr rfl fun e _ => upd_apply X W b x7 e h)

/-- The second convolution is the first one's program again, run on the first one's table. -/
theorem v31_eq (x0 : FVec Ideal S1x50000x128 .f32) (x1 : FVec Ideal S128x128 .f32) (x2 : FVec Ideal S128 .f32)
    (x3 : FVec Ideal S128x128 .f32) (x4 : FVec Ideal S128 .f32) (x7 x8 : IVec S600000 32) :
    val_main_v31 (F := Ideal) x0 x1 x2 x3 x4 x7 x8
      = val_main_v15 (F := Ideal) (val_main_v15 (F := Ideal) x0 x1 x2 x7 x8) x3 x4 x7 x8 := rfl

/-- THE REFERENCE'S RESULT at node `n`, class `j`: the network of the argument arrays. -/
theorem ref_value (x0 : FVec Ideal S1x50000x128 .f32) (x1 : FVec Ideal S128x128 .f32) (x2 : FVec Ideal S128 .f32)
    (x3 : FVec Ideal S128x128 .f32) (x4 : FVec Ideal S128 .f32) (x5 : FVec Ideal S40x128 .f32) (x6 : FVec Ideal S40 .f32)
    (x7 x8 : IVec S600000 32) (n : Fin 50000) (j : Fin 40) :
    val_main_v35 (F := Ideal) x0 x1 x2 x3 x4 x5 x6 x7 x8 (ix3 (0 : Fin 1) n j) = netOf x0 x1 x2 x3 x4 x5 x6 x7 x8 n j := by
  rw [val_main_v35_apply, val_main_v32_apply, val_main_v34_apply, val_main_v33_apply, v31_eq]
  have hb : idx_main_v33 (idx_main_v34 (ix3 (0 : Fin 1) n j)) = ix1 j := by
    funext a; match a with | ⟨0, _⟩ => rfl
  have hX : (fun (m : Fin 50000) (k : Fin 128) => val_main_v15 (F := Ideal) x0 x1 x2 x7 x8 (ix3 (0 : Fin 1) m k))
      = conv (fun n k => x0 (ix3 (0 : Fin 1) n k)) (fun h k => x1 (ix2 h k)) (fun h => x2 (ix1 h))
          (fun e => rowIdx (x7 (ix1 e))) (fun e => (x8 (ix1 e)).toInt) := by
    funext m k; exact conv_apply x0 x1 x2 x7 x8 m k
  have hs : ∀ k : Fin 128,
      val_main_v15 (F := Ideal) (val_main_v15 (F := Ideal) x0 x1 x2 x7 x8) x3 x4 x7 x8 (lidx_main_v32 (ix3 (0 : Fin 1) n j) k)
        * x5 (ridx_main_v32 (ix3 (0 : Fin 1) n j) k)
      = conv (conv (fun n k => x0 (ix3 (0 : Fin 1) n k)) (fun h k => x1 (ix2 h k)) (fun h => x2 (ix1 h))
          (fun e => rowIdx (x7 (ix1 e))) (fun e => (x8 (ix1 e)).toInt)) (fun h k => x3 (ix2 h k)) (fun h => x4 (ix1 h))
          (fun e => rowIdx (x7 (ix1 e))) (fun e => (x8 (ix1 e)).toInt) n k * x5 (ix2 j k) := fun k => by
    have hl : lidx_main_v32 (ix3 (0 : Fin 1) n j) k = ix3 (0 : Fin 1) n k := by
      funext a; match a with | ⟨0, _⟩ => rfl | ⟨1, _⟩ => rfl | ⟨2, _⟩ => rfl
    have hr : ridx_main_v32 (ix3 (0 : Fin 1) n j) k = ix2 j k := by
      funext a; match a with | ⟨0, _⟩ => rfl | ⟨1, _⟩ => rfl
    rw [hl, hr, conv_apply, hX]
  rw [hb, Finset.sum_congr rfl fun k _ => hs k]
  rfl

end Cert.ReferenceIdeal.RefValue

end
-- ==== Proof.PreRead.lean ====
/-
  The precondition, read: every source word of the edge list is a row number of the table, counted from the
  start (0 … 49999) or from the end (−50000 … −1). It is the last conjunct of the printed predicate: both
  comparisons hold at every position, and the conjunction over the positions is one.
-/
import proofs.«402194_j8358006358160_2_alg».proof.Defs
import proofs.«402194_j8358006358160_2_alg».proof.Proof.Spec
import Idealize.ShloMosaic.Lib.ReduceAll
import Idealize.ShloMosaic.Lib.StableHlo.Predicate

noncomputable section

namespace Cert.GNN

open Idealize.ShloMosaic Idealize.ShloMosaic.ValueIdx Idealize.SL.Sem

variable [hPre : Cert.Pre_finite_inputs.Facts]

/-- Where the printed precondition is one, every source word is in range. -/
theorem inRange_of_fn (a0 : FVec Ideal Cert.Pre_finite_inputs.S1x50000x128 .f32) (a1 : FVec Ideal Cert.Pre_finite_inputs.S128x128 .f32)
    (a2 : FVec Ideal Cert.Pre_finite_inputs.S128 .f32) (a3 : FVec Ideal Cert.Pre_finite_inputs.S128x128 .f32) (a4 : FVec Ideal Cert.Pre_finite_inputs.S128 .f32)
    (a5 : FVec Ideal Cert.Pre_finite_inputs.S40x128 .f32) (a6 : FVec Ideal Cert.Pre_finite_inputs.S40 .f32) (a7 a8 : IVec Cert.Pre_finite_inputs.S600000 32)
    (h : Cert.Pre_finite_inputs.fn (F := Ideal) a0 a1 a2 a3 a4 a5 a6 a7 a8 = (fun _ => 1#1)) : InRange a7 := by
  intro e
  -- the predicate at the scalar's one index; its last conjunct is the conjunction over all positions
  have h0 := congrFun h ValueIdx.ix0
  unfold Cert.Pre_finite_inputs.fn Cert.Pre_finite_inputs.fn_part1 Cert.Pre_finite_inputs.fn_part2 at h0
  dsimp only at h0
  have h1 := (IntOp.andi_eq_one.1 h0).2
  haveI : Subsingleton Cert.Pre_finite_inputs.S_.Idx := ⟨fun a b => funext fun d => d.elim0⟩
  -- a conjunction over all positions that is one is one at position e
  have h2 := Host.reduce_andi_all _ _ _ _ _ h1 (ix1 e)
  have h3 : IntOp.andi (IntOp.cmpi .sge (a7 (ix1 e)) 4294917296#32) (IntOp.cmpi .slt (a7 (ix1 e)) 50000#32) = 1#1 := h2
  -- both signed comparisons hold of the word at e: against the word of −50000 and against 50000
  obtain ⟨hge, hlt⟩ := IntOp.andi_eq_one.1 h3
  unfold IntOp.cmpi at hge hlt
  rw [StableHlo.Predicate.ofBool_eq_one_iff] at hge hlt
  simp only [BitVec.sle, BitVec.slt, decide_eq_true_eq] at hge hlt
  have c1 : (4294917296#32 : BitVec 32).toInt = -50000 := by decide
  have c2 : (50000#32 : BitVec 32).toInt = 50000 := by decide
  rw [c1] at hge
  rw [c2] at hlt
  exact ⟨hge, hlt⟩

end Cert.GNN

end
-- ==== Proof.lean ====
/-
  The certificate: the kernel's program and the reference compute the same graph network.

  Both programs run two graph convolutions and a class layer on a table of 50000 nodes with 128 features and
  600000 edges. A convolution gathers every edge's source row, applies the affine map `x ↦ x · Wᵀ + b` clipped
  at zero, and sums the edges' rows into their destination rows. The reference applies the map to the 600000
  gathered rows; the kernel applies it to the 50000 rows of the table first (a pallas_call per layer) and
  gathers afterwards. The map acts row by row, so edge `e` holds the same 128 numbers either way, and the sums
  into the destination rows are the same sums in the same order; the class layer is padded to 128 classes in
  the kernel and cut back to 40, and an entry of the first 40 classes never reads the padding. No law of
  arithmetic on the extended reals is used.

  One precondition beyond finiteness: every source word is a row number of the table (counted from the start,
  or from the end when negative). Outside it the reference itself indexes out of range (its gather clamps),
  while the kernel's gather fills such an edge with a non-number; inside it the two gathers read the same row.
  The destination words are free: both programs drop an edge whose destination is no row.

  The kernel's run with its result named is the launch theorem over the generated segments (Proof/KRun.lean);
  the result is read back through the host stretches and the three regions to the argument arrays
  (Proof/KValue.lean and Proof/KEntry.lean over Proof/RegionValue0–2.lean, Proof/KTake.lean, Proof/KTail.lean); the reference's run is
  the generated one, read entry by entry (Proof/RefValue.lean); both are `Cert.GNN.netOf` of the arguments
  (Proof/Spec.lean).
-/
import proofs.«402194_j8358006358160_2_alg».proof.Defs
import proofs.«402194_j8358006358160_2_alg».proof.Proof.Gen.Kernel
import proofs.«402194_j8358006358160_2_alg».proof.Proof.Gen.Kernel.Skeleton
import proofs.«402194_j8358006358160_2_alg».proof.Proof.Gen.Kernel.Launch
import proofs.«402194_j8358006358160_2_alg».proof.Proof.Gen.Kernel.Points
import proofs.«402194_j8358006358160_2_alg».proof.Proof.Gen.Kernel.Frame
import proofs.«402194_j8358006358160_2_alg».proof.Proof.Gen.KernelIdeal
import proofs.«402194_j8358006358160_2_alg».proof.Proof.Gen.KernelIdeal.Skeleton
import proofs.«402194_j8358006358160_2_alg».proof.Proof.Gen.KernelIdeal.Launch
import proofs.«402194_j8358006358160_2_alg».proof.Proof.Gen.KernelIdeal.Points
import proofs.«402194_j8358006358160_2_alg».proof.Proof.Gen.KernelIdeal.Frame
import proofs.«402194_j8358006358160_2_alg».proof.Proof.Gen.ReferenceIdeal
import proofs.«402194_j8358006358160_2_alg».proof.Proof.Gen.Pre_finite_inputs
import proofs.«402194_j8358006358160_2_alg».proof.Proof.Gen.ReferenceIdeal.Run
import proofs.«402194_j8358006358160_2_alg».proof.Proof.Gen.ReferenceIdeal.Read
import proofs.«402194_j8358006358160_2_alg».proof.Proof.KRun
import proofs.«402194_j8358006358160_2_alg».proof.Proof.KValue
import proofs.«402194_j8358006358160_2_alg».proof.Proof.KEntry
import proofs.«402194_j8358006358160_2_alg».proof.Proof.RefValue
import proofs.«402194_j8358006358160_2_alg».proof.Proof.PreRead
import Idealize.ShloMosaic.Adequacy
import Idealize.ShloMosaic.Init

noncomputable section

namespace Cert.Proof

open Idealize.ShloMosaic Idealize.ShloMosaic.ValueIdx Idealize.SL.Sem

/-- The word-level kernel's frame: generated whole. -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two results are one array: at node `n`, class `j` both are the network of the argument arrays. -/
theorem algebraic : Cert.algebraic_KernelIdeal_ReferenceIdeal := by
  intro m ρ m' ρ' hpre hagree
  refine ⟨fun c => Cert.KernelIdeal.Gen.W13 m ρ c (Proc.devRef .tc Cert.KernelIdeal.main_v21), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8, Cert.ReferenceIdeal.Read.val_main_v35_eq]
  funext i
  obtain ⟨a, n, j, rfl⟩ : ∃ (a : Fin 1) (n : Fin 50000) (j : Fin 40), i = ix3 a n j := ⟨i 0, i 1, i 2, eq_ix3 i⟩
  obtain rfl : a = 0 := Subsingleton.elim _ _
  rw [Cert.ReferenceIdeal.RefValue.ref_value]
  exact (Cert.KernelIdeal.KValue.kernel_value m ρ c (Cert.GNN.inRange_of_fn _ _ _ _ _ _ _ _ _ (hpre c)) n j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
